-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1000#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1000 : Shape := ⟨2, ![65536, 1000]⟩
abbrev S65536 : Shape := ⟨1, ![65536]⟩
abbrev S65536x1 : Shape := ⟨2, ![65536, 1]⟩
abbrev S2x15x1000 : Shape := ⟨3, ![2, 15, 1000]⟩
abbrev S512x1000 : Shape := ⟨2, ![512, 1000]⟩
abbrev S512x1 : Shape := ⟨2, ![512, 1]⟩
abbrev S1x15x1000 : Shape := ⟨3, ![1, 15, 1000]⟩
abbrev S15x1000 : Shape := ⟨2, ![15, 1000]⟩
abbrev S512 : Shape := ⟨1, ![512]⟩
abbrev S1x1000 : Shape := ⟨2, ![1, 1000]⟩
abbrev S1000 : Shape := ⟨1, ![1000]⟩
abbrev S_ : Shape := ⟨0, ![]⟩
abbrev S1 : Shape := ⟨1, ![1]⟩

abbrev nBuf : Space → Nat
  | .hbm => 28
  | .vmem => 13
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1, .i32⟩
  | .hbm, ⟨3, _⟩ => ⟨S2x15x1000, .f32⟩
  | .hbm, ⟨4, _⟩ => ⟨S2x15x1000, .f32⟩
  | .hbm, ⟨5, _⟩ => ⟨S2x15x1000, .f32⟩
  | .hbm, ⟨6, _⟩ => ⟨S_, .f32⟩
  | .hbm, ⟨7, _⟩ => ⟨S15x1000, .f32⟩
  | .hbm, ⟨8, _⟩ => ⟨S_, .f32⟩
  | .hbm, ⟨9, _⟩ => ⟨S15x1000, .f32⟩
  | .hbm, ⟨10, _⟩ => ⟨S_, .f32⟩
  | .hbm, ⟨11, _⟩ => ⟨S15x1000, .f32⟩
  | .hbm, ⟨12, _⟩ => ⟨S_, .f32⟩
  | .hbm, ⟨13, _⟩ => ⟨S15x1000, .f32⟩
  | .hbm, ⟨14, _⟩ => ⟨S15x1000, .f32⟩
  | .hbm, ⟨15, _⟩ => ⟨S15x1000, .f32⟩
  | .hbm, ⟨16, _⟩ => ⟨S15x1000, .f32⟩
  | .hbm, ⟨17, _⟩ => ⟨S15x1000, .f32⟩
  | .hbm, ⟨18, _⟩ => ⟨S15x1000, .f32⟩
  | .hbm, ⟨19, _⟩ => ⟨S_, .f32⟩
  | .hbm, ⟨20, _⟩ => ⟨S15x1000, .f32⟩
  | .hbm, ⟨21, _⟩ => ⟨S15x1000, .f32⟩
  | .hbm, ⟨22, _⟩ => ⟨S15x1000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1x15x1000, .f32⟩
  | .local _ .vmem, ⟨5, _⟩ => ⟨S1x15x1000, .f32⟩
  | .local _ .vmem, ⟨6, _⟩ => ⟨S1x15x1000, .f32⟩
  | .local _ .vmem, ⟨7, _⟩ => ⟨S1x15x1000, .f32⟩
  | .local _ .vmem, ⟨8, _⟩ => ⟨S1x15x1000, .f32⟩
  | .local _ .vmem, ⟨9, _⟩ => ⟨S1x15x1000, .f32⟩
  | .local _ .vmem, ⟨10, _⟩ => ⟨S15x1000, .f32⟩
  | .local _ .vmem, ⟨11, _⟩ => ⟨S15x1000, .f32⟩
  | .local _ .vmem, ⟨12, _⟩ => ⟨S15x1000, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v473 : BitVec 1 := Scalar.cmpi .eq arg1 c63_i32
  let v474 : BitVec 32 := Scalar.extui v473
  let c0_i32_268 : BitVec 32 := 0#32
  let v475 : BitVec 1 := Scalar.cmpi .ne v474 c0_i32_268
  v475

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x15x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S65536_S65536x1_0 : S65536.BroadcastsInDim S65536x1 (![0] : Fin 1 → Fin S65536x1.rank)
  inb_S15x1000_S15x1000_0_0 : ∀ a, (![0, 0] : Fin 2 → Nat) a + S15x1000.size a ≤ S15x1000.size a
  h_S15x1000 : 0 < S15x1000.numel
  shapeCasts_S15x1000_S15x1000 : S15x1000.ShapeCasts S15x1000
  inb_S512x1000_S512x1000_0_0 : ∀ a, (![0, 0] : Fin 2 → Nat) a + S512x1000.size a ≤ S512x1000.size a
  h_S512x1000 : 0 < S512x1000.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x1000_S512 : S512x1000.Reduces [1] S512
  shapeCasts_S512_S512x1 : S512.ShapeCasts S512x1
  broadcasts_S512x1_S512x1000 : S512x1.Broadcasts S512x1000
  natLt_1_32 : 1 < 32
  iota_S512x1000_d1_w32 : S512x1000.Iotas .tc 32 [1]
  inb_S15x1000_S1x1000_0_0 : ∀ a, (![0, 0] : Fin 2 → Nat) a + S1x1000.size a ≤ S15x1000.size a
  h_S1x1000 : 0 < S1x1000.numel
  shapeCasts_S1x1000_S1000 : S1x1000.ShapeCasts S1000
  reduces_S512x1000_S1000 : S512x1000.Reduces [0] S1000
  shapeCasts_S1000_S1x1000 : S1000.ShapeCasts S1x1000
  inb_S15x1000_S1x1000_1_0 : ∀ a, (![1, 0] : Fin 2 → Nat) a + S1x1000.size a ≤ S15x1000.size a
  inb_S15x1000_S1x1000_2_0 : ∀ a, (![2, 0] : Fin 2 → Nat) a + S1x1000.size a ≤ S15x1000.size a
  inb_S15x1000_S1x1000_3_0 : ∀ a, (![3, 0] : Fin 2 → Nat) a + S1x1000.size a ≤ S15x1000.size a
  inb_S15x1000_S1x1000_4_0 : ∀ a, (![4, 0] : Fin 2 → Nat) a + S1x1000.size a ≤ S15x1000.size a
  inb_S15x1000_S1x1000_5_0 : ∀ a, (![5, 0] : Fin 2 → Nat) a + S1x1000.size a ≤ S15x1000.size a
  inb_S15x1000_S1x1000_6_0 : ∀ a, (![6, 0] : Fin 2 → Nat) a + S1x1000.size a ≤ S15x1000.size a
  inb_S15x1000_S1x1000_7_0 : ∀ a, (![7, 0] : Fin 2 → Nat) a + S1x1000.size a ≤ S15x1000.size a
  inb_S15x1000_S1x1000_8_0 : ∀ a, (![8, 0] : Fin 2 → Nat) a + S1x1000.size a ≤ S15x1000.size a
  inb_S15x1000_S1x1000_9_0 : ∀ a, (![9, 0] : Fin 2 → Nat) a + S1x1000.size a ≤ S15x1000.size a
  inb_S15x1000_S1x1000_10_0 : ∀ a, (![10, 0] : Fin 2 → Nat) a + S1x1000.size a ≤ S15x1000.size a
  inb_S15x1000_S1x1000_11_0 : ∀ a, (![11, 0] : Fin 2 → Nat) a + S1x1000.size a ≤ S15x1000.size a
  inb_S15x1000_S1x1000_12_0 : ∀ a, (![12, 0] : Fin 2 → Nat) a + S1x1000.size a ≤ S15x1000.size a
  inb_S15x1000_S1x1000_13_0 : ∀ a, (![13, 0] : Fin 2 → Nat) a + S1x1000.size a ≤ S15x1000.size a
  inb_S15x1000_S1x1000_14_0 : ∀ a, (![14, 0] : Fin 2 → Nat) a + S1x1000.size a ≤ S15x1000.size a
  inb_S1x15x1000_S1x15x1000_0_0_0 : ∀ a, (![0, 0, 0] : Fin 3 → Nat) a + S1x15x1000.size a ≤ S1x15x1000.size a
  h_S1x15x1000 : 0 < S1x15x1000.numel
  shapeCasts_S1x15x1000_S15x1000 : S1x15x1000.ShapeCasts S15x1000
  shapeCasts_S15x1000_S1x15x1000 : S15x1000.ShapeCasts S1x15x1000
  reducesTo_S2x15x1000_S15x1000_d0 : S2x15x1000.ReducesTo [0] S15x1000
  h_S_ : 0 < S_.numel
  bcast_S_S15x1000 : S_.BroadcastsInDim S15x1000 (![] : Fin 0 → Fin S15x1000.rank)
  reducesTo_S15x1000_S_d0_1 : S15x1000.ReducesTo [0, 1] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S65536x1000.size a
  hwx0_0 : ∀ i : grid0.Coords, EltTy.bits .f32 = 32 ∨ (Rect.block (s := S65536x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x1000.size a ≤ S2x15x1000.size a
  hwx0_2 : ∀ i : grid0.Coords, EltTy.bits .f32 = 32 ∨ (Rect.block (s := S2x15x1000) S1x15x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x15x1000.size a ≤ S2x15x1000.size a
  hwx0_3 : ∀ i : grid0.Coords, EltTy.bits .f32 = 32 ∨ (Rect.block (s := S2x15x1000) S1x15x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x15x1000.size a ≤ S2x15x1000.size a
  hwx0_4 : ∀ i : grid0.Coords, EltTy.bits .f32 = 32 ∨ (Rect.block (s := S2x15x1000) S1x15x1000.size (cc0_transform_4 i) (hinb0_4 i)).WholeWords (EltTy.packing .f32)

variable [Facts₀]

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x15x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x15x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x15x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S1000 : Shape := ⟨1, ![1000]⟩
abbrev S1x1000 : Shape := ⟨2, ![1, 1000]⟩
abbrev S65536000 : Shape := ⟨1, ![65536000]⟩
abbrev S15001 : Shape := ⟨1, ![15001]⟩
abbrev S65536000x1 : Shape := ⟨2, ![65536000, 1]⟩
abbrev S15000 : Shape := ⟨1, ![15000]⟩
abbrev S15x1000 : Shape := ⟨2, ![15, 1000]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 146
  | .vmem => 0
  | .smem => 0
  | _ => 0

abbrev hbmTy0_0 (i : Nat) : BufTy := match i % 128 with
  | 0 => ⟨S65536x1000, .f32⟩
  | 1 => ⟨S65536, .i32⟩
  | 2 => ⟨S_, .f32⟩
  | 3 => ⟨S65536, .f32⟩
  | 4 => ⟨S_, .f32⟩
  | 5 => ⟨S65536, .f32⟩
  | 6 => ⟨S65536, .f32⟩
  | 7 => ⟨S65536x1, .f32⟩
  | 8 => ⟨S65536x1000, .f32⟩
  | 9 => ⟨S65536x1000, .f32⟩
  | 10 => ⟨S65536x1000, .f32⟩
  | 11 => ⟨S_, .f32⟩
  | 12 => ⟨S65536, .f32⟩
  | 13 => ⟨S65536x1, .f32⟩
  | 14 => ⟨S65536x1000, .f32⟩
  | 15 => ⟨S65536x1000, .f32⟩
  | 16 => ⟨S_, .f32⟩
  | 17 => ⟨S65536x1000, .f32⟩
  | 18 => ⟨S65536x1000, .f32⟩
  | 19 => ⟨S65536x1000, .f32⟩
  | 20 => ⟨S65536x1000, .i32⟩
  | 21 => ⟨S_, .i32⟩
  | 22 => ⟨S65536x1000, .i32⟩
  | 23 => ⟨S65536x1000, .i32⟩
  | 24 => ⟨S_, .i32⟩
  | 25 => ⟨S_, .i32⟩
  | 26 => ⟨S_, .i32⟩
  | 27 => ⟨S65536x1000, .i32⟩
  | 28 => ⟨S65536x1000, .i32⟩
  | 29 => ⟨S_, .i32⟩
  | 30 => ⟨S65536x1000, .i32⟩
  | 31 => ⟨S65536x1000, .i32⟩
  | 32 => ⟨S_, .f32⟩
  | 33 => ⟨S65536x1000, .f32⟩
  | 34 => ⟨S65536x1000, .i1⟩
  | 35 => ⟨S_, .i32⟩
  | 36 => ⟨S65536x1000, .i32⟩
  | 37 => ⟨S65536x1000, .i32⟩
  | 38 => ⟨S1000, .i32⟩
  | 39 => ⟨S1x1000, .i32⟩
  | 40 => ⟨S65536x1000, .i32⟩
  | 41 => ⟨S65536x1000, .i32⟩
  | 42 => ⟨S_, .i32⟩
  | 43 => ⟨S_, .i32⟩
  | 44 => ⟨S65536x1000, .i32⟩
  | 45 => ⟨S65536x1000, .i32⟩
  | 46 => ⟨S_, .f32⟩
  | 47 => ⟨S_, .f32⟩
  | 48 => ⟨S65536x1000, .f32⟩
  | 49 => ⟨S65536x1000, .f32⟩
  | 50 => ⟨S65536000, .f32⟩
  | 51 => ⟨S65536000, .i32⟩
  | 52 => ⟨S_, .f32⟩
  | 53 => ⟨S15001, .f32⟩
  | 54 => ⟨S65536000x1, .i32⟩
  | 55 => ⟨S15001, .f32⟩
  | 56 => ⟨S15000, .f32⟩
  | 57 => ⟨S15x1000, .f32⟩
  | 58 => ⟨S65536x1000, .f32⟩
  | 59 => ⟨S65536000, .f32⟩
  | 60 => ⟨S65536000, .i32⟩
  | 61 => ⟨S_, .f32⟩
  | 62 => ⟨S15001, .f32⟩
  | 63 => ⟨S65536000x1, .i32⟩
  | 64 => ⟨S15001, .f32⟩
  | 65 => ⟨S15000, .f32⟩
  | 66 => ⟨S15x1000, .f32⟩
  | 67 => ⟨S65536x1, .i32⟩
  | 68 => ⟨S_, .i32⟩
  | 69 => ⟨S65536x1, .i32⟩
  | 70 => ⟨S65536x1, .i1⟩
  | 71 => ⟨S_, .i32⟩
  | 72 => ⟨S65536x1, .i32⟩
  | 73 => ⟨S65536x1, .i32⟩
  | 74 => ⟨S65536x1, .i32⟩
  | 75 => ⟨S65536x1x1, .i32⟩
  | 76 => ⟨S1, .i32⟩
  | 77 => ⟨S_, .i32⟩
  | 78 => ⟨S65536x1x1, .i32⟩
  | 79 => ⟨S65536x1x1, .i1⟩
  | 80 => ⟨S1x1x1, .i32⟩
  | 81 => ⟨S65536x1x1, .i32⟩
  | 82 => ⟨S65536x1x1, .i1⟩
  | 83 => ⟨S65536x1x1, .i1⟩
  | 84 => ⟨S_, .i1⟩
  | 85 => ⟨S65536x1, .i1⟩
  | 86 => ⟨S65536x1, .i32⟩
  | 87 => ⟨S_, .i32⟩
  | 88 => ⟨S65536x1, .i32⟩
  | 89 => ⟨S65536x1, .i32⟩
  | 90 => ⟨S65536, .i32⟩
  | 91 => ⟨S65536x1, .i32⟩
  | 92 => ⟨S_, .i32⟩
  | 93 => ⟨S65536x1, .i32⟩
  | 94 => ⟨S65536x1, .i1⟩
  | 95 => ⟨S_, .i32⟩
  | 96 => ⟨S65536x1, .i32⟩
  | 97 => ⟨S65536x1, .i32⟩
  | 98 => ⟨S65536x1, .i32⟩
  | 99 => ⟨S65536x1x1, .i32⟩
  | 100 => ⟨S1, .i32⟩
  | 101 => ⟨S_, .i32⟩
  | 102 => ⟨S65536x1x1, .i32⟩
  | 103 => ⟨S65536x1x1, .i1⟩
  | 104 => ⟨S1x1x1, .i32⟩
  | 105 => ⟨S65536x1x1, .i32⟩
  | 106 => ⟨S65536x1x1, .i1⟩
  | 107 => ⟨S65536x1x1, .i1⟩
  | 108 => ⟨S_, .i1⟩
  | 109 => ⟨S65536x1, .i1⟩
  | 110 => ⟨S65536x1, .i1⟩
  | 111 => ⟨S_, .i1⟩
  | 112 => ⟨S65536x1, .i1⟩
  | 113 => ⟨S65536x1, .i1⟩
  | 114 => ⟨S65536, .i1⟩
  | 115 => ⟨S_, .i32⟩
  | 116 => ⟨S65536, .i32⟩
  | 117 => ⟨S65536, .i32⟩
  | 118 => ⟨S65536, .i32⟩
  | 119 => ⟨S_, .i32⟩
  | 120 => ⟨S_, .i32⟩
  | 121 => ⟨S65536, .i32⟩
  | 122 => ⟨S65536, .i32⟩
  | 123 => ⟨S65536, .f32⟩
  | 124 => ⟨S_, .f32⟩
  | 125 => ⟨S15001, .f32⟩
  | 126 => ⟨S65536x1, .i32⟩
  | 127 => ⟨S15001, .f32⟩
  | _ => ⟨S65536x1000, .f32⟩

abbrev hbmTy0_1 (i : Nat) : BufTy := match i % 128 with
  | 0 => ⟨S15000, .f32⟩
  | 1 => ⟨S15x1000, .f32⟩
  | 2 => ⟨S_, .f32⟩
  | 3 => ⟨S15x1000, .f32⟩
  | 4 => ⟨S15x1000, .f32⟩
  | 5 => ⟨S15x1000, .f32⟩
  | 6 => ⟨S15x1000, .f32⟩
  | 7 => ⟨S15x1000, .f32⟩
  | 8 => ⟨S15x1000, .f32⟩
  | 9 => ⟨S_, .f32⟩
  | 10 => ⟨S15x1000, .f32⟩
  | 11 => ⟨S15x1000, .f32⟩
  | 12 => ⟨S15x1000, .f32⟩
  | 13 => ⟨S_, .f32⟩
  | 14 => ⟨S_, .f32⟩
  | 15 => ⟨S_, .f32⟩
  | 16 => ⟨S_, .f32⟩
  | 17 => ⟨S1, .f32⟩
  | _ => ⟨S65536x1000, .f32⟩

abbrev hbmTy (i : Nat) : BufTy := match i / 128 with
  | 0 => hbmTy0_0 i
  | 1 => hbmTy0_1 i
  | _ => ⟨S65536x1000, .f32⟩

abbrev bufTy : (tb : Table) → Fin (tcTables nBuf tb) → BufTy
  | .hbm, ⟨i, _⟩ => hbmTy i
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_call1_v0 : Ref sig .tc := ⟨.hbm, 43, rfl⟩
abbrev main_call1_v1 : Ref sig .tc := ⟨.hbm, 44, rfl⟩
abbrev main_v26 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_c_4 : Ref sig .tc := ⟨.hbm, 87, rfl⟩
abbrev main_call3_v14 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call4_c : Ref sig .tc := ⟨.hbm, 92, rfl⟩
abbrev main_call4_v0 : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_c_2 : Ref sig .tc := ⟨.hbm, 101, rfl⟩
abbrev main_call4_v6 : Ref sig .tc := ⟨.hbm, 102, rfl⟩
abbrev main_call4_v7 : Ref sig .tc := ⟨.hbm, 103, rfl⟩
abbrev main_call4_v8 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_3 : Ref sig .tc := ⟨.hbm, 108, rfl⟩
abbrev main_call4_v12 : Ref sig .tc := ⟨.hbm, 109, rfl⟩
abbrev main_call4_v13 : Ref sig .tc := ⟨.hbm, 110, rfl⟩
abbrev main_call4_c_4 : Ref sig .tc := ⟨.hbm, 111, rfl⟩
abbrev main_call4_v14 : Ref sig .tc := ⟨.hbm, 112, rfl⟩
abbrev main_v47 : Ref sig .tc := ⟨.hbm, 113, rfl⟩
abbrev main_v48 : Ref sig .tc := ⟨.hbm, 114, rfl⟩
abbrev main_c_11 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_c_12 : Ref sig .tc := ⟨.hbm, 119, rfl⟩
abbrev main_call5_v0 : Ref sig .tc := ⟨.hbm, 120, rfl⟩
abbrev main_call5_v1 : Ref sig .tc := ⟨.hbm, 121, rfl⟩
abbrev main_v52 : Ref sig .tc := ⟨.hbm, 122, rfl⟩
abbrev main_v53 : Ref sig .tc := ⟨.hbm, 123, rfl⟩
abbrev main_cst_13 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_14 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_cst_15 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_16 : Ref sig .tc := ⟨.hbm, 141, rfl⟩
abbrev main_v68 : Ref sig .tc := ⟨.hbm, 142, rfl⟩
abbrev main_cst_17 : Ref sig .tc := ⟨.hbm, 143, rfl⟩
abbrev main_v69 : Ref sig .tc := ⟨.hbm, 144, rfl⟩
abbrev main_v70 : Ref sig .tc := ⟨.hbm, 145, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S_S65536x1000 : S_.BroadcastsInDim S65536x1000 (![] : Fin 0 → Fin S65536x1000.rank)
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  shapeCasts_S65536x1000_S65536000 : S65536x1000.ShapeCasts S65536000
  bcast_S_S15001 : S_.BroadcastsInDim S15001 (![] : Fin 0 → Fin S15001.rank)
  bcast_S65536000_S65536000x1_0 : S65536000.BroadcastsInDim S65536000x1 (![0] : Fin 1 → Fin S65536000x1.rank)
  slices_S15001_S15000_0 : S15001.Slices ![0] S15000
  shapeCasts_S15000_S15x1000 : S15000.ShapeCasts S15x1000
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  bcast_S_S15x1000 : S_.BroadcastsInDim S15x1000 (![] : Fin 0 → Fin S15x1000.rank)
  reducesTo_S15x1000_S_d0_1 : S15x1000.ReducesTo [0, 1] S_
  shapeCasts_S_S1 : S_.ShapeCasts S1
  scatter_S15001_S65536000x1_S65536000_n_0_0_1_wf : ScatterDims.WF S15001 S65536000x1 S65536000 [] [0] [0] 1
  gather_S65536x1000_S65536x1x1_S65536x1_n_1_0_0_1_2_11_wf : GatherDims.WF S65536x1000 S65536x1x1 S65536x1 [] [1] [0] [1] [0] 2 ![1, 1]
  scatter_S15001_S65536x1_S65536_n_0_0_1_wf : ScatterDims.WF S15001 S65536x1 S65536 [] [0] [0] 1

variable [Facts₀]

def scatter_S15001_S65536000x1_S65536000_n_0_0_1 : ScatterDims S15001 S65536000x1 S65536000 where
  updateWindowDims := []
  insertedWindowDims := [0]
  scatterDimsToOperandDims := [0]
  indexVectorDim := 1
  wf := scatter_S15001_S65536000x1_S65536000_n_0_0_1_wf
def gather_S65536x1000_S65536x1x1_S65536x1_n_1_0_0_1_2_11 : GatherDims S65536x1000 S65536x1x1 S65536x1 where
  offsetDims := []
  collapsedSliceDims := [1]
  operandBatchingDims := [0]
  startIndicesBatchingDims := [0]
  startIndexMap := [1]
  indexVectorDim := 2
  sliceSizes := ![1, 1]
  wf := gather_S65536x1000_S65536x1x1_S65536x1_n_1_0_0_1_2_11_wf
def scatter_S15001_S65536x1_S65536_n_0_0_1 : ScatterDims S15001 S65536x1 S65536 where
  updateWindowDims := []
  insertedWindowDims := [0]
  scatterDimsToOperandDims := [0]
  indexVectorDim := 1
  wf := scatter_S15001_S65536x1_S65536_n_0_0_1_wf

class Facts : Prop extends Facts₀ where

variable [Facts]
-- ==== Proof.Spec.lean ====
/-
  Class-wise expected calibration error by histogram binning: the mathematics both programs compute.

  For a sample with logits x (a row of 1000 classes) the probability of class j is the softmax
  p_j = exp (x_j - M) / sum_k exp (x_k - M), M the row's maximum. A probability p falls into bin
  clip (ceil (15 p) - 1, 0, 14) and is "valid" when p > 0. Three histograms over (bin b, class j) are
  accumulated over the samples n: the confidence sum (p when valid), the count (1 when valid) and the
  number of correct samples (1 when valid and j is the sample's label). Each is a sum over samples of a
  TERM that is the sample's weight when its bin word is b and 0 otherwise; sums are taken on the
  extended reals, where adding 0 changes nothing and the order of a sum does not matter, so no
  finiteness is needed for any of it.
-/
import Idealize.ShloMosaic.Lib.ValueIdx
import Idealize.ShloMosaic.PureOps.Ideal
import Idealize.ShloMosaic.PureOps.Ideal.Laws
import Mathlib.Algebra.BigOperators.Intervals
import Mathlib.Algebra.BigOperators.Fin

noncomputable section

namespace Cert.Ece

open Idealize.ShloMosaic Idealize.ShloMosaic.ValueIdx

/-- One sample's logits: a row over the 1000 classes. -/
abbrev Logits : Type := Fin 1000 → EReal

/-- The row's maximum, as a fold of max from the pattern of minus infinity. -/
def rowMax (x : Logits) : EReal :=
  (Finset.univ : Finset (Fin 1000)).fold max (Ideal.ofBits .f32 0xFF800000#32) x

/-- exp (x_k - M). -/
def expShift (x : Logits) (k : Fin 1000) : EReal := Ideal.exp (x k - rowMax x)

/-- The softmax probability of class j. -/
def prob (x : Logits) (j : Fin 1000) : EReal :=
  Ideal.div (expShift x j) (∑ k : Fin 1000, expShift x k)

/-- The bin word of a probability: clip (ceil (15 p) - 1, 0, 14), as 32-bit signed arithmetic. -/
def binWord (p : EReal) : BitVec 32 :=
  IntOp.minsi 14#32 (IntOp.maxsi 0#32
    (IntOp.subi (Ideal.fptosi 32 (Ideal.liftRound Int.ceil (p * Ideal.ofBits .f32 0x41700000#32))) 1#32))

/-- The bit "p > 0". -/
def validBit (p : EReal) : BitVec 1 := Ideal.cmp .ogt p (Ideal.ofBits .f32 0x00000000#32)

/-- A bit as the extended real 0 or 1. -/
def bitVal (v : BitVec 1) : EReal := ((((v.setWidth 32 : BitVec 32).toInt : ℤ) : ℝ) : EReal)

/-- The confidence weight: p where valid, else the zero pattern's value. -/
def wConf (p : EReal) : EReal := Scalar.select (validBit p) p (Ideal.ofBits .f32 0x00000000#32)

/-- The count weight: 1 where valid. -/
def wCount (p : EReal) : EReal := bitVal (validBit p)

/-- The correctness weight: 1 where valid and the class is the sample's label. -/
def wCorrect (p : EReal) (j : Fin 1000) (lab : BitVec 32) : EReal :=
  bitVal (IntOp.andi (validBit p) (IntOp.cmpi .eq (BitVec.ofNat 32 j.val) lab))

/-- The three weights by kind: 0 confidence, 1 count, 2 correct. -/
def weight (k : Fin 3) (p : EReal) (j : Fin 1000) (lab : BitVec 32) : EReal :=
  match k with
  | 0 => wConf p
  | 1 => wCount p
  | 2 => wCorrect p j lab

/-- One sample's term for (bin word b, class j): its weight when its bin word is b, else the zero pattern's value. -/
def term (k : Fin 3) (b : BitVec 32) (x : Logits) (lab : BitVec 32) (j : Fin 1000) : EReal :=
  Scalar.select (IntOp.cmpi .eq (binWord (prob x j)) b) (weight k (prob x j) j lab) (Ideal.ofBits .f32 0x00000000#32)

/-- Sample n's logits in the array of all logits. -/
def rowOf (X : FVec Ideal ⟨2, ![65536, 1000]⟩ .f32) (n : Fin 65536) : Logits := fun k => X (ix2 n k)

/-- Sample n's term, for n a natural number: 0 past the last sample. -/
def termAt (k : Fin 3) (X : FVec Ideal ⟨2, ![65536, 1000]⟩ .f32) (L : IVec ⟨1, ![65536]⟩ 32)
    (b : Fin 15) (j : Fin 1000) (n : ℕ) : EReal :=
  if h : n < 65536 then term k (BitVec.ofNat 32 b.val) (rowOf X ⟨n, h⟩) (L (ix1 ⟨n, h⟩)) j else 0

/-- The histogram of kind k over the samples lo ≤ n < hi, at (bin b, class j). -/
def histOn (k : Fin 3) (X : FVec Ideal ⟨2, ![65536, 1000]⟩ .f32) (L : IVec ⟨1, ![65536]⟩ 32)
    (lo hi : ℕ) (b : Fin 15) (j : Fin 1000) : EReal :=
  ∑ n ∈ Finset.Ico lo hi, termAt k X L b j n

/-- The histogram of kind k over all samples, as an array [15, 1000]. -/
def hist (k : Fin 3) (X : FVec Ideal ⟨2, ![65536, 1000]⟩ .f32) (L : IVec ⟨1, ![65536]⟩ 32) :
    FVec Ideal ⟨2, ![15, 1000]⟩ .f32 :=
  fun i => histOn k X L 0 65536 ⟨(i 0).val, idx2_lt0 i⟩ ⟨(i 1).val, idx2_lt1 i⟩

theorem hist_ix2 (k : Fin 3) (X : FVec Ideal ⟨2, ![65536, 1000]⟩ .f32) (L : IVec ⟨1, ![65536]⟩ 32)
    (b : Fin 15) (j : Fin 1000) : hist k X L (ix2 b j) = histOn k X L 0 65536 b j := rfl

/-- Consecutive ranges of samples add up. -/
theorem histOn_append (k : Fin 3) (X : FVec Ideal ⟨2, ![65536, 1000]⟩ .f32) (L : IVec ⟨1, ![65536]⟩ 32)
    {lo mid hi : ℕ} (h1 : lo ≤ mid) (h2 : mid ≤ hi) (b : Fin 15) (j : Fin 1000) :
    histOn k X L lo mid b j + histOn k X L mid hi b j = histOn k X L lo hi b j :=
  Finset.sum_Ico_consecutive _ h1 h2

/-- An empty range of samples contributes 0. -/
theorem histOn_self (k : Fin 3) (X : FVec Ideal ⟨2, ![65536, 1000]⟩ .f32) (L : IVec ⟨1, ![65536]⟩ 32)
    (lo : ℕ) (b : Fin 15) (j : Fin 1000) : histOn k X L lo lo b j = 0 := by
  unfold histOn; rw [Finset.Ico_self, Finset.sum_empty]

/-- The histogram over a tile of 512 consecutive samples starting at 512 t, as a sum over the tile's rows. -/
theorem histOn_tile (k : Fin 3) (X : FVec Ideal ⟨2, ![65536, 1000]⟩ .f32) (L : IVec ⟨1, ![65536]⟩ 32)
    (t : ℕ) (ht : t < 128) (b : Fin 15) (j : Fin 1000) :
    histOn k X L (512 * t) (512 * t + 512) b j
      = ∑ r : Fin 512, term k (BitVec.ofNat 32 b.val) (rowOf X ⟨512 * t + r.val, by have := r.isLt; omega⟩)
          (L (ix1 ⟨512 * t + r.val, by have := r.isLt; omega⟩)) j := by
  unfold histOn
  rw [Finset.sum_Ico_eq_sum_range, show 512 * t + 512 - 512 * t = 512 by omega, ← Fin.sum_univ_eq_sum_range
    (fun r => termAt k X L b j (512 * t + r)) 512]
  refine Finset.sum_congr rfl (fun r _ => ?_)
  unfold termAt
  rw [dif_pos (by have := r.isLt; omega)]

/-- The histogram over all samples as a sum over the samples. -/
theorem histOn_all (k : Fin 3) (X : FVec Ideal ⟨2, ![65536, 1000]⟩ .f32) (L : IVec ⟨1, ![65536]⟩ 32)
    (b : Fin 15) (j : Fin 1000) :
    histOn k X L 0 65536 b j
      = ∑ n : Fin 65536, term k (BitVec.ofNat 32 b.val) (rowOf X n) (L (ix1 n)) j := by
  unfold histOn
  rw [← Finset.range_eq_Ico, ← Fin.sum_univ_eq_sum_range (fun n => termAt k X L b j n) 65536]
  refine Finset.sum_congr rfl (fun n _ => ?_)
  unfold termAt
  rw [dif_pos n.isLt]

/-- A tile of 512 samples' contribution to (bin b, class j): the sum of the tile's rows' terms. The tile's logits are
    x0 [512, 1000] and its labels the column x1 [512, 1]. -/
def tileSum (k : Fin 3) (x0 : FVec Ideal ⟨2, ![512, 1000]⟩ .f32) (x1 : IVec ⟨2, ![512, 1]⟩ 32)
    (b : Fin 15) (j : Fin 1000) : EReal :=
  ∑ r : Fin 512, term k (BitVec.ofNat 32 b.val) (fun c => x0 (ix2 r c)) (x1 (ix2 r (0 : Fin 1))) j

/-- A tile that holds rows 512 t … 512 t + 511 of the arrays contributes the histogram over those samples. -/
theorem tileSum_eq_histOn (k : Fin 3) (X : FVec Ideal ⟨2, ![65536, 1000]⟩ .f32) (L : IVec ⟨1, ![65536]⟩ 32)
    (t : ℕ) (ht : t < 128) (x0 : FVec Ideal ⟨2, ![512, 1000]⟩ .f32) (x1 : IVec ⟨2, ![512, 1]⟩ 32)
    (h0 : ∀ (r : Fin 512) (c : Fin 1000), x0 (ix2 r c) = X (ix2 ⟨512 * t + r.val, by have := r.isLt; omega⟩ c))
    (h1 : ∀ r : Fin 512, x1 (ix2 r (0 : Fin 1)) = L (ix1 ⟨512 * t + r.val, by have := r.isLt; omega⟩))
    (b : Fin 15) (j : Fin 1000) :
    tileSum k x0 x1 b j = histOn k X L (512 * t) (512 * t + 512) b j := by
  rw [histOn_tile k X L t ht b j]
  unfold tileSum
  refine Finset.sum_congr rfl (fun r _ => ?_)
  rw [h1 r]
  congr 1
  funext c
  exact h0 r c

/-- The bin word, read signed, lies in [0, 14]. -/
theorem binWord_range (p : EReal) : 0 ≤ (binWord p).toInt ∧ (binWord p).toInt ≤ 14 := by
  unfold binWord IntOp.minsi IntOp.maxsi
  generalize IntOp.subi (Ideal.fptosi 32 (Ideal.liftRound Int.ceil (p * Ideal.ofBits .f32 0x41700000#32))) 1#32 = w
  simp only [BitVec.slt]
  have h14 : (14#32 : BitVec 32).toInt = 14 := by decide
  have h0 : (0#32 : BitVec 32).toInt = 0 := by decide
  split_ifs with h1 h2 h2 <;> simp only [decide_eq_true_eq, h14, h0, not_lt] at * <;> omega

/-- What the programs do after the histograms, shared by both: the per-cell gap
    |conf / max (count, 1) - correct / max (count, 1)| times count / 65536, summed over the cells, over 1000,
    as an array of one element. The shape relations are taken as hypotheses, so that either program's own
    witnesses of them can be supplied. -/
def tail
    (hb : (⟨0, ![]⟩ : Shape).BroadcastsInDim ⟨2, ![15, 1000]⟩ (![] : Fin 0 → Fin 2))
    (hr : (⟨2, ![15, 1000]⟩ : Shape).ReducesTo [0, 1] ⟨0, ![]⟩)
    (h0 : 0 < (⟨0, ![]⟩ : Shape).numel)
    (hc : (⟨0, ![]⟩ : Shape).ShapeCasts ⟨1, ![1]⟩)
    (conf count correct : FVec Ideal ⟨2, ![15, 1000]⟩ .f32) : FVec Ideal ⟨1, ![1]⟩ .f32 :=
  shapeCast ⟨1, ![1]⟩
    (Host.divf
      (Host.reduceAdd
        (mulf
          (Host.absf (subf
            (Host.divf conf (maximumf count (broadcastInDim ⟨2, ![15, 1000]⟩ ![] hb (constant (F := Ideal) ⟨0, ![]⟩ .f32 0x3F800000#32))))
            (Host.divf correct (maximumf count (broadcastInDim ⟨2, ![15, 1000]⟩ ![] hb (constant (F := Ideal) ⟨0, ![]⟩ .f32 0x3F800000#32))))))
          (Host.divf count (broadcastInDim ⟨2, ![15, 1000]⟩ ![] hb (constant (F := Ideal) ⟨0, ![]⟩ .f32 0x47800000#32))))
        (constant (F := Ideal) ⟨0, ![]⟩ .f32 0x00000000#32) hr h0)
      (constant (F := Ideal) ⟨0, ![]⟩ .f32 0x447A0000#32))
    hc

end Cert.Ece

end
-- ==== Proof.KernelBody.lean ====
/-
  What one grid point's body leaves in the three accumulators and, at a core's last point, in the three outputs:
  entry (b, j) of accumulator k is what it held before plus the tile's contribution to (bin b, class j) — the sum over
  the tile's 512 rows of the row's term. At a core's first point the accumulators are reset first, so the sum starts
  from 0; at its last point each output block is the accumulator's final contents.
-/
import proofs.«418438_j56461640073709_1_alg».proof.Proof.Gen.KernelIdeal.Frame
import proofs.«418438_j56461640073709_1_alg».proof.Proof.Spec
import Idealize.ShloMosaic.Lib.ValueLayout
import Idealize.ShloMosaic.Lib.Pipeline.Value

set_option maxRecDepth 16384

noncomputable section

namespace Cert.Ece.KernelBody

open Idealize.ShloMosaic Idealize.ShloMosaic.ValueIdx Idealize.ShloMosaic.Tactic Cert.KernelIdeal Cert.KernelIdeal.Gen Cert.Ece

theorem hz2 : (![0, 0] : Fin 2 → Nat) = fun _ => 0 := funext fun a => by fin_cases a <;> rfl

theorem hz3 : (![0, 0, 0] : Fin 3 → Nat) = fun _ => 0 := funext fun a => by fin_cases a <;> rfl

/-- The index over column j with row coordinate r inserted on axis 0. -/
theorem lift_col (j : Fin 1000) (r : Fin 512) :
    reduces_S512x1000_S1000.lift (ix1 j) r = ix2 r j :=
  funext fun a => Fin.ext <| match a with | ⟨0, _⟩ => rfl | ⟨1, _⟩ => rfl

/-- The index over row r with column coordinate k inserted on axis 1. -/
theorem lift_row (r : Fin 512) (k : Fin 1000) :
    reduces_S512x1000_S512.lift (ix1 r) k = ix2 r k :=
  funext fun a => Fin.ext <| match a with | ⟨0, _⟩ => rfl | ⟨1, _⟩ => rfl

/-- One accumulator row's update: the old row plus, per column, the sum over the tile's rows of the masked weight. -/
def rowUpd (msk : IVec S512x1000 1) (w : FVec Ideal S512x1000 .f32) (old : Vec Ideal S1x1000 .f32) : FVec Ideal S1x1000 .f32 :=
  shapeCast S1x1000 (addf (shapeCast S1000 old shapeCasts_S1x1000_S1000)
    (multiReduction .add [0] S1000 (select msk w (broadcast S512x1000 (Scalar.ofBits .f32 0x00000000#32)))
      0x00000000#32 reduces_S512x1000_S1000 (.inl rfl) rfl)) shapeCasts_S1000_S1x1000

theorem rowUpd_apply (msk : IVec S512x1000 1) (w : FVec Ideal S512x1000 .f32) (old : Vec Ideal S1x1000 .f32)
    (u : Fin 1) (j : Fin 1000) :
    rowUpd msk w old (ix2 u j)
      = old (ix2 (0 : Fin 1) j) + ∑ r : Fin 512, Scalar.select (msk (ix2 r j)) (w (ix2 r j)) (Ideal.ofBits .f32 0x00000000#32) := by
  unfold rowUpd
  refine (shapeCast_a_1a_apply _ shapeCasts_S1000_S1x1000 u j).trans ?_
  rw [addf_apply]
  congr 1
  · exact shapeCast_1a_a_apply old shapeCasts_S1x1000_S1000 j
  · refine (Ideal.multiReduction_add_single _ 0x00000000#32 reduces_S512x1000_S1000 (.inl rfl) rfl (ix1 j)).trans ?_
    refine Finset.sum_congr rfl (fun r _ => ?_)
    exact congrArg (select msk w (broadcast S512x1000 (Scalar.ofBits .f32 0x00000000#32))) (lift_col j r)

/-- What an accumulator holds at (bin y₀, class y₁) after the tile: the contents before plus the sum over the tile's rows
    of the weight where the row's bin word is y₀. -/
def accG (BW : IVec S512x1000 32) (W : FVec Ideal S512x1000 .f32) (xs : S15x1000.Idx → EReal) : S15x1000.Idx → EReal :=
  fun y => xs y + ∑ r : Fin 512,
    Scalar.select (IntOp.cmpi .eq (BW (ix2 r ⟨(y 1).val, idx2_lt1 y⟩)) (BitVec.ofNat 32 (y 0).val))
      (W (ix2 r ⟨(y 1).val, idx2_lt1 y⟩)) (Ideal.ofBits .f32 0x00000000#32)

/-- Row k of the accumulator as a rectangle. -/
abbrev rowRect (k : ℕ) (inb : ∀ a, (![k, 0] : Fin 2 → Nat) a + S1x1000.size a ≤ S15x1000.size a) : Rect S15x1000 :=
  Rect.unit ![k, 0] ![1, 1000] inb

theorem rowRect_emb (k : ℕ) (inb) (u : Fin 1) (j : Fin 1000) (hk : k < 15) :
    (rowRect k inb).emb (ix2 u j) = ix2 ⟨k, hk⟩ j :=
  funext fun a => Fin.ext <| match a with
    | ⟨0, _⟩ => by show k + 1 * u.val = k; omega
    | ⟨1, _⟩ => by show 0 + 1 * j.val = j.val; omega

theorem mem_rowRect (k : ℕ) (inb) (y : S15x1000.Idx) : y ∈ (rowRect k inb).set ↔ (y 0).val = k := by
  rw [Rect.mem_set_unit]
  constructor
  · intro h; have := h 0; simp only [Matrix.cons_val_zero] at this; omega
  · intro h a
    match a with
    | ⟨0, _⟩ => show k ≤ (y 0).val ∧ (y 0).val < k + 1; omega
    | ⟨1, _⟩ => show 0 ≤ (y 1).val ∧ (y 1).val < 0 + 1000; have := idx2_lt1 y; omega

theorem ofBits_zero : Ideal.ofBits .f32 0x00000000#32 = 0 := by simp [Ideal.ofBits, Ideal.ieee]

section Lists

variable (v : View sig .tc .vmem S15x1000 .f32) (BW : IVec S512x1000 32) (W : FVec Ideal S512x1000 .f32)

/-- The stores of a point that resets the accumulator: the whole-buffer store of zeros, then row after row the row's
    update, each reading the row back from the stores before it. -/
inductive GoodA : ℕ → List (View.Piece (Elt Ideal) S15x1000 .f32) → Prop
  | zero (inb : ∀ a, (![0, 0] : Fin 2 → Nat) a + S15x1000.size a ≤ S15x1000.size a)
      (z : S15x1000.Idx → EReal) (hz : ∀ y, z y = Ideal.ofBits .f32 0x00000000#32) :
      GoodA 0 [⟨Rect.unit ![0, 0] ![15, 1000] inb, z⟩]
  | step (k : ℕ) (L : List (View.Piece (Elt Ideal) S15x1000 .f32))
      (inb : ∀ a, (![k, 0] : Fin 2 → Nat) a + S1x1000.size a ≤ S15x1000.size a)
      (msk : IVec S512x1000 1) (hmsk : ∀ i, msk i = IntOp.cmpi .eq (BW i) (BitVec.ofNat 32 k)) :
      GoodA k L →
      GoodA (k + 1) (⟨Rect.unit ![k, 0] ![1, 1000] inb,
        rowUpd msk W (v.readCov L (Rect.unit (s := S15x1000) ![k, 0] S1x1000.size inb).toLoadRect)⟩ :: L)

/-- After the reset and the first k rows' updates the accumulator holds, on the rows below k, the tile's contribution
    from zero, and zero on the other rows. -/
theorem GoodA.canon_eq {k : ℕ} {L : List (View.Piece (Elt Ideal) S15x1000 .f32)} (h : GoodA v BW W k L) (hk : k ≤ 15) :
    ∀ y : S15x1000.Idx, View.canon L y
      = if (y 0).val < k then accG BW W (fun _ => Ideal.ofBits .f32 0x00000000#32) y else Ideal.ofBits .f32 0x00000000#32 := by
  induction h with
  | zero inb z hz =>
    intro y
    rw [View.canon_unit_zero hz2, if_neg (Nat.not_lt_zero _), hz]
  | step k L inb msk hmsk hL ih =>
    intro y
    have ih' := ih (by omega)
    by_cases hy : (y 0).val = k
    · have hk' : k < 15 := by omega
      obtain ⟨j, rfl⟩ : ∃ j : Fin 1000, y = ix2 ⟨k, hk'⟩ j :=
        ⟨⟨(y 1).val, idx2_lt1 y⟩, by rw [eq_ix2 y]; exact congrArg₂ ix2 (Fin.ext hy) rfl⟩
      rw [← rowRect_emb k inb 0 j hk']
      refine (View.canon_cons_emb (rowRect k inb) _ L (ix2 0 j)).trans ?_
      rw [rowUpd_apply, View.readCov_eq_canon']
      rw [rowRect_emb k inb 0 j hk', if_pos (show k < k + 1 by omega)]
      unfold accG
      congr 1
      · have e : (Rect.unit (s := S15x1000) ![k, 0] S1x1000.size inb).toLoadRect.idx (ix2 (0 : Fin 1) j) = ix2 ⟨k, hk'⟩ j :=
          rowRect_emb k inb 0 j hk'
        show View.canon L ((Rect.unit (s := S15x1000) ![k, 0] S1x1000.size inb).toLoadRect.idx (ix2 (0 : Fin 1) j)) = _
        rw [e, ih', if_neg (by show ¬ k < k; omega)]
      · refine Finset.sum_congr rfl (fun r _ => ?_)
        rw [hmsk]
    · have hnm : y ∉ (rowRect k inb).set := fun hm => hy ((mem_rowRect k inb y).mp hm)
      refine (View.canon_cons_of_not_mem ⟨rowRect k inb, _⟩ L hnm).trans ?_
      rw [ih']
      by_cases hlt : (y 0).val < k
      · rw [if_pos hlt, if_pos (by omega)]
      · rw [if_neg hlt, if_neg (by omega)]

end Lists

section ListsB

variable (v : View sig .tc .vmem S15x1000 .f32) (BW : IVec S512x1000 32) (W : FVec Ideal S512x1000 .f32)
  (f : v.ty.Contents (Elt Ideal))

/-- The stores of a point that goes on from the previous one: row after row the row's update, each reading the row
    from what the point before left. -/
inductive GoodB : ℕ → List (View.Piece (Elt Ideal) S15x1000 .f32) → Prop
  | nil : GoodB 0 []
  | step (k : ℕ) (L : List (View.Piece (Elt Ideal) S15x1000 .f32))
      (inb : ∀ a, (![k, 0] : Fin 2 → Nat) a + S1x1000.size a ≤ S15x1000.size a)
      (msk : IVec S512x1000 1) (hmsk : ∀ i, msk i = IntOp.cmpi .eq (BW i) (BitVec.ofNat 32 k)) :
      GoodB k L →
      GoodB (k + 1) (⟨Rect.unit ![k, 0] ![1, 1000] inb,
        rowUpd msk W (View.readAt (Elt Ideal) v (Rect.unit (s := S15x1000) ![k, 0] S1x1000.size inb).toLoadRect f)⟩ :: L)

/-- After the first k rows' updates the accumulator holds, on the rows below k, what it held plus the tile's contribution. -/
theorem GoodB.canon_eq {k : ℕ} {L : List (View.Piece (Elt Ideal) S15x1000 .f32)} (h : GoodB v BW W f k L) (hk : k ≤ 15) :
    ∀ y : S15x1000.Idx, (y 0).val < k → View.canon L y = accG BW W (v.read (Elt Ideal) f) y := by
  induction h with
  | nil => intro y hy; omega
  | step k L inb msk hmsk hL ih =>
    intro y hyk
    have ih' := ih (by omega)
    by_cases hy : (y 0).val = k
    · have hk' : k < 15 := by omega
      obtain ⟨j, rfl⟩ : ∃ j : Fin 1000, y = ix2 ⟨k, hk'⟩ j :=
        ⟨⟨(y 1).val, idx2_lt1 y⟩, by rw [eq_ix2 y]; exact congrArg₂ ix2 (Fin.ext hy) rfl⟩
      rw [← rowRect_emb k inb 0 j hk']
      refine (View.canon_cons_emb (rowRect k inb) _ L (ix2 0 j)).trans ?_
      rw [rowUpd_apply, rowRect_emb k inb 0 j hk']
      unfold accG
      congr 1
      · have e : (Rect.unit (s := S15x1000) ![k, 0] S1x1000.size inb).toLoadRect.idx (ix2 (0 : Fin 1) j) = ix2 ⟨k, hk'⟩ j :=
          rowRect_emb k inb 0 j hk'
        show v.read (Elt Ideal) f ((Rect.unit (s := S15x1000) ![k, 0] S1x1000.size inb).toLoadRect.idx (ix2 (0 : Fin 1) j)) = _
        rw [e]
      · refine Finset.sum_congr rfl (fun r _ => ?_)
        rw [hmsk]
    · have hnm : y ∉ (rowRect k inb).set := fun hm => hy ((mem_rowRect k inb y).mp hm)
      refine (View.canon_cons_of_not_mem ⟨rowRect k inb, _⟩ L hnm).trans ?_
      exact ih' y (by omega)

end ListsB

section Values

variable (x0 : FVec Ideal S512x1000 .f32) (x1 : IVec S512x1 32)

/-- The tile's row r as a sample's logits. -/
abbrev rowL (r : Fin 512) : Logits := fun c => x0 (ix2 r c)

/-- The row maximum, kept as a column and broadcast along the row. -/
theorem rowmax_bcast (r : Fin 512) (c : Fin 1000) :
    broadcastTo S512x1000 (shapeCast S512x1 (multiReduction (F := Ideal) .maximumf [1] S512 x0 0xFF800000#32 reduces_S512x1000_S512 (.inl rfl) rfl)
      shapeCasts_S512_S512x1) broadcasts_S512x1_S512x1000 (ix2 r c) = rowMax (rowL x0 r) := by
  refine (broadcastTo_apply _ broadcasts_S512x1_S512x1000 (ix2 r c) (ix2 r (0 : Fin 1)) (fun a => ?_)).trans ?_
  · match a with
    | ⟨0, _⟩ => rfl
    | ⟨1, _⟩ => rfl
  refine (shapeCast_apply _ shapeCasts_S512_S512x1 (ix2 r (0 : Fin 1)) (ix1 r) (by
    rw [Shape.rowMajor_val_two, Shape.rowMajor_val_one]; show r.val = r.val * 1 + 0; omega)).trans ?_
  refine (Ideal.multiReduction_maximumf_single x0 0xFF800000#32 reduces_S512x1000_S512 (.inl rfl) rfl (ix1 r)).trans ?_
  have e : (x0 ∘ reduces_S512x1000_S512.lift (ix1 r)) = rowL x0 r := funext fun k => congrArg x0 (lift_row r k)
  rw [e]
  rfl

/-- The row sum, kept as a column and broadcast along the row. -/
theorem rowsum_bcast (e : FVec Ideal S512x1000 .f32) (r : Fin 512) (c : Fin 1000) :
    broadcastTo S512x1000 (shapeCast S512x1 (multiReduction (F := Ideal) .add [1] S512 e 0x00000000#32 reduces_S512x1000_S512 (.inl rfl) rfl)
      shapeCasts_S512_S512x1) broadcasts_S512x1_S512x1000 (ix2 r c) = ∑ k : Fin 1000, e (ix2 r k) := by
  refine (broadcastTo_apply _ broadcasts_S512x1_S512x1000 (ix2 r c) (ix2 r (0 : Fin 1)) (fun a => ?_)).trans ?_
  · match a with
    | ⟨0, _⟩ => rfl
    | ⟨1, _⟩ => rfl
  refine (shapeCast_apply _ shapeCasts_S512_S512x1 (ix2 r (0 : Fin 1)) (ix1 r) (by
    rw [Shape.rowMajor_val_two, Shape.rowMajor_val_one]; show r.val = r.val * 1 + 0; omega)).trans ?_
  refine (Ideal.multiReduction_add_single e 0x00000000#32 reduces_S512x1000_S512 (.inl rfl) rfl (ix1 r)).trans ?_
  refine Finset.sum_congr rfl (fun k _ => ?_)
  exact congrArg e (lift_row r k)

/-- The kernel's exponential of the shifted logit at (r, c). -/
theorem exp_apply (r : Fin 512) (c : Fin 1000) :
    exp (subf x0 (broadcastTo S512x1000 (shapeCast S512x1 (multiReduction (F := Ideal) .maximumf [1] S512 x0 0xFF800000#32 reduces_S512x1000_S512 (.inl rfl) rfl)
      shapeCasts_S512_S512x1) broadcasts_S512x1_S512x1000)) (ix2 r c) = expShift (rowL x0 r) c := by
  show Ideal.exp (x0 (ix2 r c) - _) = _
  rw [rowmax_bcast]
  rfl

/-- The kernel's softmax probability at (r, c) is the row's probability of class c. -/
theorem pay10_apply (r : Fin 512) (c : Fin 1000) : k0_pay10 (F := Ideal) x0 (ix2 r c) = prob (rowL x0 r) c := by
  unfold k0_pay10
  simp only []
  rw [divf_apply, exp_apply, rowsum_bcast]
  unfold prob
  refine congrArg (Ideal.div _) ?_
  exact Finset.sum_congr rfl (fun k _ => exp_apply x0 r k)

theorem pay11_apply (r : Fin 512) (c : Fin 1000) : k0_pay11 (F := Ideal) x0 (ix2 r c) = binWord (prob (rowL x0 r) c) := by
  rw [← pay10_apply]; rfl

theorem pay12_apply (r : Fin 512) (c : Fin 1000) : k0_pay12 (F := Ideal) x0 (ix2 r c) = validBit (prob (rowL x0 r) c) := by
  rw [← pay10_apply]; rfl

theorem pay14_apply (r : Fin 512) (c : Fin 1000) : k0_pay14 (F := Ideal) x0 (ix2 r c) = wConf (prob (rowL x0 r) c) := by
  rw [← pay10_apply]; rfl

theorem pay13_apply (r : Fin 512) (c : Fin 1000) : k0_pay13 (F := Ideal) x0 (ix2 r c) = wCount (prob (rowL x0 r) c) := by
  rw [← pay10_apply]; rfl

end Values

section Values2

variable (x0 : FVec Ideal S512x1000 .f32) (x1 : IVec S512x1 32)

theorem pay15_apply (r : Fin 512) (c : Fin 1000) :
    k0_pay15 (F := Ideal) x0 x1 (ix2 r c) = wCorrect (prob (rowL x0 r) c) c (x1 (ix2 r (0 : Fin 1))) := by
  have h1 : iota .tc S512x1000 32 [1] iota_S512x1000_d1_w32 (ix2 r c) = BitVec.ofNat 32 c.val :=
    iota_single_apply .tc S512x1000 32 1 iota_S512x1000_d1_w32 (ix2 r c)
  have h2 : broadcastTo S512x1000 (shapeCast S512x1 (shapeCast S512x1 x1 shapeCasts_S512x1_S512x1) shapeCasts_S512x1_S512x1)
      broadcasts_S512x1_S512x1000 (ix2 r c) = x1 (ix2 r (0 : Fin 1)) := by
    rw [shapeCast_self, shapeCast_self]
    exact broadcastTo_apply x1 broadcasts_S512x1_S512x1000 (ix2 r c) (ix2 r (0 : Fin 1))
      (fun a => match a with | ⟨0, _⟩ => rfl | ⟨1, _⟩ => rfl)
  unfold wCorrect
  rw [← pay12_apply, ← h1, ← h2]
  rfl

/-- The three weights the kernel forms are the specification's, entry by entry. -/
theorem accG_tile (k : Fin 3) (W : FVec Ideal S512x1000 .f32)
    (hW : ∀ (r : Fin 512) (c : Fin 1000), W (ix2 r c) = weight k (prob (rowL x0 r) c) c (x1 (ix2 r (0 : Fin 1))))
    (xs : S15x1000.Idx → EReal) (b : Fin 15) (j : Fin 1000) :
    accG (k0_pay11 (F := Ideal) x0) W xs (ix2 b j) = xs (ix2 b j) + tileSum k x0 x1 b j := by
  unfold accG tileSum term
  refine congrArg (xs (ix2 b j) + ·) ?_
  refine Finset.sum_congr rfl (fun r _ => ?_)
  show Scalar.select (IntOp.cmpi .eq (k0_pay11 (F := Ideal) x0 (ix2 r j)) (BitVec.ofNat 32 b.val)) (W (ix2 r j)) _ = _
  rw [pay11_apply, hW]

end Values2

variable (c : Dev nD) (i : grid0.Coords) (arg2 : Memref sig .tc .vmem S512x1000 .f32) (harg2 : arg2.IsWhole) (arg3 : Memref sig .tc .vmem S512x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole)

/-- The tile's logits as the point's whole-buffer load reads them. -/
abbrev ldX0 (x0 : Vec Ideal S512x1000 .f32) : Vec Ideal S512x1000 .f32 :=
  View.readAt (Elt Ideal) arg2.view (Rect.unit (s := S512x1000) ![0, 0] S512x1000.size inb_S512x1000_S512x1000_0_0).toLoadRect (harg2.unread x0)

/-- The tile's labels as the point's whole-buffer load reads them. -/
abbrev ldX1 (x1 : Vec Ideal S512x1 .i32) : Vec Ideal S512x1 .i32 :=
  View.readAt (Elt Ideal) arg3.view (Rect.unit (s := S512x1) ![0, 0] S512x1.size inb_S512x1_S512x1_0_0).toLoadRect (harg3.unread x1)

theorem ldX0_eq (x0 : Vec Ideal S512x1000 .f32) : ldX0 arg2 harg2 x0 = x0 := by
  unfold ldX0
  rw [View.readAt_eq_ld, harg2.read_unread, View.ld_unit_zero (S := S512x1000) hz2]

theorem ldX1_eq (x1 : Vec Ideal S512x1 .i32) : ldX1 arg3 harg3 x1 = x1 := by
  unfold ldX1
  rw [View.readAt_eq_ld, harg3.read_unread, View.ld_unit_zero (S := S512x1) hz2]

/-- The whole accumulator as a load rectangle places an index at itself. -/
theorem whole_idx (b : Fin 15) (j : Fin 1000) :
    (Rect.unit (s := S15x1000) ![0, 0] ![15, 1000] inb_S15x1000_S15x1000_0_0).toLoadRect.idx (ix2 b j) = ix2 b j :=
  funext fun a => Fin.ext <| match a with
    | ⟨0, _⟩ => by show 0 + 1 * b.val = b.val; omega
    | ⟨1, _⟩ => by show 0 + 1 * j.val = j.val; omega

theorem pay4_apply (X : Vec Ideal S15x1000 .f32) (b : Fin 15) (j : Fin 1000) :
    k0_pay4 (F := Ideal) X (ix3 (0 : Fin 1) b j) = X (ix2 b j) := by
  unfold k0_pay4
  exact shapeCast_ab_1ab_apply X shapeCasts_S15x1000_S1x15x1000 (0 : Fin 1) b j

theorem pay5_apply (X : Vec Ideal S15x1000 .f32) (b : Fin 15) (j : Fin 1000) :
    k0_pay5 (F := Ideal) X (ix3 (0 : Fin 1) b j) = X (ix2 b j) := by
  unfold k0_pay5
  exact shapeCast_ab_1ab_apply X shapeCasts_S15x1000_S1x15x1000 (0 : Fin 1) b j

theorem pay6_apply (X : Vec Ideal S15x1000 .f32) (b : Fin 15) (j : Fin 1000) :
    k0_pay6 (F := Ideal) X (ix3 (0 : Fin 1) b j) = X (ix2 b j) := by
  unfold k0_pay6
  exact shapeCast_ab_1ab_apply X shapeCasts_S15x1000_S1x15x1000 (0 : Fin 1) b j

/-- Case A, accumulator 0: reset, then the tile's contribution. -/
theorem sout_A_0 (hc0 : cond0_0 i) (hc1 : ¬cond0_1 i) (x0 : Vec Ideal S512x1000 .f32) (x1 : Vec Ideal S512x1 .i32) (b : Fin 15) (j : Fin 1000) :
    sout0_A_0 (F := Ideal) c i arg2 harg2 arg3 harg3 arg4 harg4 arg5 harg5 arg6 harg6 arg7 harg7 arg8 harg8 arg9 harg9 hc0 hc1 x0 x1 (ix2 b j) = tileSum 0 x0 x1 b j := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  refine (GoodA.canon_eq arg7.view (k0_pay11 (F := Ideal) (ldX0 arg2 harg2 x0)) (k0_pay14 (F := Ideal) (ldX0 arg2 harg2 x0)) ?_ (le_refl 15) (ix2 b j)).trans ?_
  · repeat (first | exact GoodA.zero _ _ (fun _ => rfl) | (refine GoodA.step _ _ _ _ ?_ ?_; swap))
    all_goals exact fun _ => rfl
  · rw [if_pos (show ((ix2 b j : S15x1000.Idx) 0).val < 15 from b.isLt)]
    rw [ldX0_eq arg2 harg2 x0]
    refine (accG_tile x0 x1 0 _ (fun r c => pay14_apply x0 r c) _ b j).trans ?_
    show Ideal.ofBits .f32 0x00000000#32 + _ = _
    rw [ofBits_zero, zero_add]

/-- Case A, accumulator 1: reset, then the tile's contribution. -/
theorem sout_A_1 (hc0 : cond0_0 i) (hc1 : ¬cond0_1 i) (x0 : Vec Ideal S512x1000 .f32) (x1 : Vec Ideal S512x1 .i32) (b : Fin 15) (j : Fin 1000) :
    sout0_A_1 (F := Ideal) c i arg2 harg2 arg3 harg3 arg4 harg4 arg5 harg5 arg6 harg6 arg7 harg7 arg8 harg8 arg9 harg9 hc0 hc1 x0 x1 (ix2 b j) = tileSum 1 x0 x1 b j := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  refine (GoodA.canon_eq arg8.view (k0_pay11 (F := Ideal) (ldX0 arg2 harg2 x0)) (k0_pay13 (F := Ideal) (ldX0 arg2 harg2 x0)) ?_ (le_refl 15) (ix2 b j)).trans ?_
  · repeat (first | exact GoodA.zero _ _ (fun _ => rfl) | (refine GoodA.step _ _ _ _ ?_ ?_; swap))
    all_goals exact fun _ => rfl
  · rw [if_pos (show ((ix2 b j : S15x1000.Idx) 0).val < 15 from b.isLt)]
    rw [ldX0_eq arg2 harg2 x0]
    refine (accG_tile x0 x1 1 _ (fun r c => pay13_apply x0 r c) _ b j).trans ?_
    show Ideal.ofBits .f32 0x00000000#32 + _ = _
    rw [ofBits_zero, zero_add]

/-- Case A, accumulator 2: reset, then the tile's contribution. -/
theorem sout_A_2 (hc0 : cond0_0 i) (hc1 : ¬cond0_1 i) (x0 : Vec Ideal S512x1000 .f32) (x1 : Vec Ideal S512x1 .i32) (b : Fin 15) (j : Fin 1000) :
    sout0_A_2 (F := Ideal) c i arg2 harg2 arg3 harg3 arg4 harg4 arg5 harg5 arg6 harg6 arg7 harg7 arg8 harg8 arg9 harg9 hc0 hc1 x0 x1 (ix2 b j) = tileSum 2 x0 x1 b j := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  refine (GoodA.canon_eq arg9.view (k0_pay11 (F := Ideal) (ldX0 arg2 harg2 x0)) (k0_pay15 (F := Ideal) (ldX0 arg2 harg2 x0) (ldX1 arg3 harg3 x1)) ?_ (le_refl 15) (ix2 b j)).trans ?_
  · repeat (first | exact GoodA.zero _ _ (fun _ => rfl) | (refine GoodA.step _ _ _ _ ?_ ?_; swap))
    all_goals exact fun _ => rfl
  · rw [if_pos (show ((ix2 b j : S15x1000.Idx) 0).val < 15 from b.isLt)]
    rw [ldX0_eq arg2 harg2 x0, ldX1_eq arg3 harg3 x1]
    refine (accG_tile x0 x1 2 _ (fun r c => pay15_apply x0 x1 r c) _ b j).trans ?_
    show Ideal.ofBits .f32 0x00000000#32 + _ = _
    rw [ofBits_zero, zero_add]

/-- Case B, accumulator 0: the previous contents plus the tile's contribution. -/
theorem sout_B_0 (hc0 : ¬cond0_0 i) (hc1 : ¬cond0_1 i) (x0 : Vec Ideal S512x1000 .f32) (x1 : Vec Ideal S512x1 .i32) (xs0 xs1 xs2 : Vec Ideal S15x1000 .f32) (b : Fin 15) (j : Fin 1000) :
    sout0_B_0 (F := Ideal) c i arg2 harg2 arg3 harg3 arg4 harg4 arg5 harg5 arg6 harg6 arg7 harg7 arg8 harg8 arg9 harg9 hc0 hc1 x0 x1 xs0 xs1 xs2 (ix2 b j) = xs0 (ix2 b j) + tileSum 0 x0 x1 b j := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (GoodB.canon_eq arg7.view (k0_pay11 (F := Ideal) (ldX0 arg2 harg2 x0)) (k0_pay14 (F := Ideal) (ldX0 arg2 harg2 x0)) (harg7.unread xs0) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg7.read_unread]
    exact accG_tile x0 x1 0 _ (fun r c => pay14_apply x0 r c) xs0 b j

/-- Case B, accumulator 1: the previous contents plus the tile's contribution. -/
theorem sout_B_1 (hc0 : ¬cond0_0 i) (hc1 : ¬cond0_1 i) (x0 : Vec Ideal S512x1000 .f32) (x1 : Vec Ideal S512x1 .i32) (xs0 xs1 xs2 : Vec Ideal S15x1000 .f32) (b : Fin 15) (j : Fin 1000) :
    sout0_B_1 (F := Ideal) c i arg2 harg2 arg3 harg3 arg4 harg4 arg5 harg5 arg6 harg6 arg7 harg7 arg8 harg8 arg9 harg9 hc0 hc1 x0 x1 xs0 xs1 xs2 (ix2 b j) = xs1 (ix2 b j) + tileSum 1 x0 x1 b j := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (GoodB.canon_eq arg8.view (k0_pay11 (F := Ideal) (ldX0 arg2 harg2 x0)) (k0_pay13 (F := Ideal) (ldX0 arg2 harg2 x0)) (harg8.unread xs1) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg8.read_unread]
    exact accG_tile x0 x1 1 _ (fun r c => pay13_apply x0 r c) xs1 b j

/-- Case B, accumulator 2: the previous contents plus the tile's contribution. -/
theorem sout_B_2 (hc0 : ¬cond0_0 i) (hc1 : ¬cond0_1 i) (x0 : Vec Ideal S512x1000 .f32) (x1 : Vec Ideal S512x1 .i32) (xs0 xs1 xs2 : Vec Ideal S15x1000 .f32) (b : Fin 15) (j : Fin 1000) :
    sout0_B_2 (F := Ideal) c i arg2 harg2 arg3 harg3 arg4 harg4 arg5 harg5 arg6 harg6 arg7 harg7 arg8 harg8 arg9 harg9 hc0 hc1 x0 x1 xs0 xs1 xs2 (ix2 b j) = xs2 (ix2 b j) + tileSum 2 x0 x1 b j := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (GoodB.canon_eq arg9.view (k0_pay11 (F := Ideal) (ldX0 arg2 harg2 x0)) (k0_pay15 (F := Ideal) (ldX0 arg2 harg2 x0) (ldX1 arg3 harg3 x1)) (harg9.unread xs2) ?_ (le_refl 15) (ix2 b j) b.isLt).trans ?_
  · repeat (first | exact GoodB.nil | (refine GoodB.step _ _ _ _ ?_ ?_; swap))
    all_goals exact fun _ => rfl
  · rw [ldX0_eq arg2 harg2 x0, ldX1_eq arg3 harg3 x1]
    rw [harg9.read_unread]
    exact accG_tile x0 x1 2 _ (fun r c => pay15_apply x0 x1 r c) xs2 b j

/-- Case C, accumulator 0: the previous contents plus the tile's contribution. -/
theorem sout_C_0 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    sout0_C_0 (F := Ideal) c i arg2 harg2 arg3 harg3 arg4 harg4 arg5 harg5 arg6 harg6 arg7 harg7 arg8 harg8 arg9 harg9 hc0 hc1 x0 x1 xs0 xs1 xs2 (ix2 b j) = xs0 (ix2 b j) + tileSum 0 x0 x1 b j := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (GoodB.canon_eq arg7.view (k0_pay11 (F := Ideal) (ldX0 arg2 harg2 x0)) (k0_pay14 (F := Ideal) (ldX0 arg2 harg2 x0)) (harg7.unread xs0) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg7.read_unread]
    exact accG_tile x0 x1 0 _ (fun r c => pay14_apply x0 r c) xs0 b j

/-- Case C, accumulator 1: the previous contents plus the tile's contribution. -/
theorem sout_C_1 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    sout0_C_1 (F := Ideal) c i arg2 harg2 arg3 harg3 arg4 harg4 arg5 harg5 arg6 harg6 arg7 harg7 arg8 harg8 arg9 harg9 hc0 hc1 x0 x1 xs0 xs1 xs2 (ix2 b j) = xs1 (ix2 b j) + tileSum 1 x0 x1 b j := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (GoodB.canon_eq arg8.view (k0_pay11 (F := Ideal) (ldX0 arg2 harg2 x0)) (k0_pay13 (F := Ideal) (ldX0 arg2 harg2 x0)) (harg8.unread xs1) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg8.read_unread]
    exact accG_tile x0 x1 1 _ (fun r c => pay13_apply x0 r c) xs1 b j

/-- Case C, accumulator 2: the previous contents plus the tile's contribution. -/
theorem sout_C_2 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    sout0_C_2 (F := Ideal) c i arg2 harg2 arg3 harg3 arg4 harg4 arg5 harg5 arg6 harg6 arg7 harg7 arg8 harg8 arg9 harg9 hc0 hc1 x0 x1 xs0 xs1 xs2 (ix2 b j) = xs2 (ix2 b j) + tileSum 2 x0 x1 b j := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (GoodB.canon_eq arg9.view (k0_pay11 (F := Ideal) (ldX0 arg2 harg2 x0)) (k0_pay15 (F := Ideal) (ldX0 arg2 harg2 x0) (ldX1 arg3 harg3 x1)) (harg9.unread xs2) ?_ (le_refl 15) (ix2 b j) b.isLt).trans ?_
  · repeat (first | exact GoodB.nil | (refine GoodB.step _ _ _ _ ?_ ?_; swap))
    all_goals exact fun _ => rfl
  · rw [ldX0_eq arg2 harg2 x0, ldX1_eq arg3 harg3 x1]
    rw [harg9.read_unread]
    exact accG_tile x0 x1 2 _ (fun r c => pay15_apply x0 x1 r c) xs2 b j

/-- Case C, output window 2: the block written back is accumulator 0's final contents. -/
theorem out_C_2 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    out0_C_2 (F := Ideal) c i arg2 harg2 arg3 harg3 arg4 harg4 arg5 harg5 arg6 harg6 arg7 harg7 arg8 harg8 arg9 harg9 hc0 hc1 x0 x1 xs0 xs1 xs2 (ix3 (0 : Fin 1) b j) = xs0 (ix2 b j) + tileSum 0 x0 x1 b j := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x15x1000) hz3, pay4_apply]
  rw [View.readCov_eq_canon']
  beta_reduce
  rw [whole_idx b j]
  refine (GoodB.canon_eq arg7.view (k0_pay11 (F := Ideal) (ldX0 arg2 harg2 x0)) (k0_pay14 (F := Ideal) (ldX0 arg2 harg2 x0)) (harg7.unread xs0) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg7.read_unread]
    exact accG_tile x0 x1 0 _ (fun r c => pay14_apply x0 r c) xs0 b j

/-- Case C, output window 3: the block written back is accumulator 1's final contents. -/
theorem out_C_3 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    out0_C_3 (F := Ideal) c i arg2 harg2 arg3 harg3 arg4 harg4 arg5 harg5 arg6 harg6 arg7 harg7 arg8 harg8 arg9 harg9 hc0 hc1 x0 x1 xs0 xs1 xs2 (ix3 (0 : Fin 1) b j) = xs1 (ix2 b j) + tileSum 1 x0 x1 b j := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x15x1000) hz3, pay5_apply]
  rw [View.readCov_eq_canon']
  beta_reduce
  rw [whole_idx b j]
  refine (GoodB.canon_eq arg8.view (k0_pay11 (F := Ideal) (ldX0 arg2 harg2 x0)) (k0_pay13 (F := Ideal) (ldX0 arg2 harg2 x0)) (harg8.unread xs1) ?_ (le_refl 15) (ix2 b j) b.isLt).trans ?_
  · repeat (first | exact GoodB.nil | (refine GoodB.step _ _ _ _ ?_ ?_; swap))
    all_goals exact fun _ => rfl
  · rw [ldX0_eq arg2 harg2 x0]
    rw [harg8.read_unread]
    exact accG_tile x0 x1 1 _ (fun r c => pay13_apply x0 r c) xs1 b j

/-- Case C, output window 4: the block written back is accumulator 2's final contents. -/
theorem out_C_4 (hc0 : ¬cond0_0 i) (hc1 : cond0_1 i) (x0 : Vec Ideal S512x1000 .f32) (x1 : Vec Ideal S512x1 .i32) (xs0 xs1 xs2 : Vec Ideal S15x1000 .f32) (b : Fin 15) (j : Fin 1000) :
    out0_C_4 (F := Ideal) c i arg2 harg2 arg3 harg3 arg4 harg4 arg5 harg5 arg6 harg6 arg7 harg7 arg8 harg8 arg9 harg9 hc0 hc1 x0 x1 xs0 xs1 xs2 (ix3 (0 : Fin 1) b j) = xs2 (ix2 b j) + tileSum 2 x0 x1 b j := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x15x1000) hz3, pay6_apply]
  rw [View.readCov_eq_canon']
  beta_reduce
  rw [whole_idx b j]
  refine (GoodB.canon_eq arg9.view (k0_pay11 (F := Ideal) (ldX0 arg2 harg2 x0)) (k0_pay15 (F := Ideal) (ldX0 arg2 harg2 x0) (ldX1 arg3 harg3 x1)) (harg9.unread xs2) ?_ (le_refl 15) (ix2 b j) b.isLt).trans ?_
  · repeat (first | exact GoodB.nil | (refine GoodB.step _ _ _ _ ?_ ?_; swap))
    all_goals exact fun _ => rfl
  · rw [ldX0_eq arg2 harg2 x0, ldX1_eq arg3 harg3 x1]
    rw [harg9.read_unread]
    exact accG_tile x0 x1 2 _ (fun r c => pay15_apply x0 x1 r c) xs2 b j

end Cert.Ece.KernelBody

end
-- ==== Proof.KernelAccum.lean ====
/-
  What the three accumulators hold point by point. The grid's point t = 64 q + s (core q, step s) sees the tile of
  rows 512 t up to 512 t + 511 of the logits and of the labels. A tile contributes, to entry (bin b, class j) of
  accumulator k, the histogram of kind k over its 512 samples. At a core's first point the accumulators are reset, so
  after point t accumulator k holds the histogram over the samples 32768 q up to 512 t + 511, by induction on t with
  consecutive ranges of samples adding up. At a core's last point (s = 63) that range is the core's whole half,
  32768 q up to 32768 q + 32767, and the three output blocks take these values.
-/
import proofs.«418438_j56461640073709_1_alg».proof.Proof.KernelBody
import Idealize.ShloMosaic.Lib.Pipeline.Value
import Idealize.ShloMosaic.Lib.StableHlo.Run

set_option maxRecDepth 16384

noncomputable section

namespace Cert.Ece

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The array of all logits, as the program is launched with it. -/
abbrev Xarr (c : Dev nD) : FVec Ideal ⟨2, ![65536, 1000]⟩ .f32 := m ((c.tc : Thread nD τ).loc main_arg0)
/-- The labels, as the program is launched with them. -/
abbrev Larr (c : Dev nD) : IVec ⟨1, ![65536]⟩ 32 := m ((c.tc : Thread nD τ).loc main_arg1)
/-- The tile of logits the body sees at point t. -/
abbrev xblk (c : Dev nD) (t : Fin cfg0.N) : Vec Ideal S512x1000 .f32 := iblk m c 0 t
/-- The tile of labels, a column, the body sees at point t. -/
abbrev lblk (c : Dev nD) (t : Fin cfg0.N) : Vec Ideal S512x1 .i32 := iblk m c 1 t

/-- The input windows' block indices at point t: block t along the samples, the whole of the other axis. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r of the logits tile at point t is row 512 t + r of the logits. -/
theorem xblk_read (c : Dev nD) (t : Fin cfg0.N) (ht : t.val < 128) (r : Fin 512) (col : Fin 1000) :
    xblk m c t (ix2 r col) = Xarr m c (ix2 ⟨512 * t.val + r.val, by have := r.isLt; omega⟩ col) := by
  obtain ⟨e0, e1, -, -⟩ := idx_in t
  unfold xblk iblk
  rw [View.read_apply]
  show V m c main_arg0 _ = m ((c.tc : Thread nD τ).loc main_arg0) _
  rw [V_main_arg0]
  refine congrArg _ (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1000 + 1 * col.val = col.val; rw [e1]; omega

/-- Row r of the labels tile at point t is label 512 t + r: the column read by the kernel is the labels with a
    unit axis appended. -/
theorem lblk_read (c : Dev nD) (t : Fin cfg0.N) (ht : t.val < 128) (r : Fin 512) :
    lblk m c t (ix2 r (0 : Fin 1)) = Larr m c (ix1 ⟨512 * t.val + r.val, by have := r.isLt; omega⟩) := by
  obtain ⟨-, -, e0, e1⟩ := idx_in t
  unfold lblk iblk
  rw [View.read_apply]
  show V m c main_v0 _ = m ((c.tc : Thread nD τ).loc main_arg1) _
  have e : V m c main_v0 = broadcastInDim S65536x1 ![0] Facts₀.bcast_S65536_S65536x1_0 (m ((c.tc : Thread nD τ).loc main_arg1)) := by
    show StableHlo.after hostOps0 (fun b => m (c, b)) (Proc.devRef .tc main_v0) = _
    after_results
  rw [e]
  refine broadcastInDim_apply _ _ _ _ (ix1 ⟨512 * t.val + r.val, by have := r.isLt; omega⟩) ?_
  intro a
  match a with
  | ⟨0, _⟩ =>
    show 512 * t.val + r.val = if (65536 : ℕ) = 1 then 0 else win0_1.index t (0 : Fin 2) * 512 + 1 * r.val
    rw [if_neg (by decide), e0]; omega

/-- A tile's contribution is the histogram over its 512 samples. -/
theorem tile_hist (c : Dev nD) (t : Fin cfg0.N) (ht : t.val < 128) (k : Fin 3) (b : Fin 15) (j : Fin 1000) :
    tileSum k (xblk m c t) (lblk m c t) b j = histOn k (Xarr m c) (Larr m c) (512 * t.val) (512 * t.val + 512) b j :=
  tileSum_eq_histOn k (Xarr m c) (Larr m c) t.val ht (xblk m c t) (lblk m c t) (fun r col => xblk_read m c t ht r col)
    (fun r => lblk_read m c t ht r) b j

/-- At a core's first point each accumulator is reset and takes the tile's contribution. -/
theorem step_first (c : Dev nD) (t : Fin cfg0.N) (h0 : t.val % 64 = 0) (h1 : ¬t.val % 64 = 63) (b : Fin 15) (j : Fin 1000) :
    (outsAt0 m c t.val t.isLt).2.2.2.1 (ix2 b j) = tileSum 0 (xblk m c t) (lblk m c t) b j
    ∧ (outsAt0 m c t.val t.isLt).2.2.2.2.1 (ix2 b j) = tileSum 1 (xblk m c t) (lblk m c t) b j
    ∧ (outsAt0 m c t.val t.isLt).2.2.2.2.2 (ix2 b j) = tileSum 2 (xblk m c t) (lblk m c t) b j := by
  rw [outsAt0_A m c t h0 h1]
  dsimp only
  exact ⟨KernelBody.sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) b j,
    KernelBody.sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) b j,
    KernelBody.sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) b j⟩

/-- At every later point of a core each accumulator adds the tile's contribution to what the point before left. -/
theorem step_later (c : Dev nD) (t : Fin cfg0.N) (h0 : ¬t.val % 64 = 0) (b : Fin 15) (j : Fin 1000) :
    (outsAt0 m c t.val t.isLt).2.2.2.1 (ix2 b j) = (outsAt0 m c (t.val - 1) (Nat.lt_of_le_of_lt (Nat.sub_le _ _) t.isLt)).2.2.2.1 (ix2 b j) + tileSum 0 (xblk m c t) (lblk m c t) b j
    ∧ (outsAt0 m c t.val t.isLt).2.2.2.2.1 (ix2 b j) = (outsAt0 m c (t.val - 1) (Nat.lt_of_le_of_lt (Nat.sub_le _ _) t.isLt)).2.2.2.2.1 (ix2 b j) + tileSum 1 (xblk m c t) (lblk m c t) b j
    ∧ (outsAt0 m c t.val t.isLt).2.2.2.2.2 (ix2 b j) = (outsAt0 m c (t.val - 1) (Nat.lt_of_le_of_lt (Nat.sub_le _ _) t.isLt)).2.2.2.2.2 (ix2 b j) + tileSum 2 (xblk m c t) (lblk m c t) b j := by
  by_cases h1 : t.val % 64 = 63
  · rw [outsAt0_C m c t h0 h1]
    dsimp only
    exact ⟨KernelBody.sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
      KernelBody.sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
      KernelBody.sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j⟩
  · rw [outsAt0_B m c t h0 h1]
    dsimp only
    exact ⟨KernelBody.sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
      KernelBody.sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
      KernelBody.sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j⟩

/-- At a core's last point each output block is what its accumulator ends with. -/
theorem step_last (c : Dev nD) (t : Fin cfg0.N) (h0 : ¬t.val % 64 = 0) (h1 : t.val % 64 = 63) (b : Fin 15) (j : Fin 1000) :
    (outsAt0 m c t.val t.isLt).1 (ix3 (0 : Fin 1) b j) = (outsAt0 m c (t.val - 1) (Nat.lt_of_le_of_lt (Nat.sub_le _ _) t.isLt)).2.2.2.1 (ix2 b j) + tileSum 0 (xblk m c t) (lblk m c t) b j
    ∧ (outsAt0 m c t.val t.isLt).2.1 (ix3 (0 : Fin 1) b j) = (outsAt0 m c (t.val - 1) (Nat.lt_of_le_of_lt (Nat.sub_le _ _) t.isLt)).2.2.2.2.1 (ix2 b j) + tileSum 1 (xblk m c t) (lblk m c t) b j
    ∧ (outsAt0 m c t.val t.isLt).2.2.1 (ix3 (0 : Fin 1) b j) = (outsAt0 m c (t.val - 1) (Nat.lt_of_le_of_lt (Nat.sub_le _ _) t.isLt)).2.2.2.2.2 (ix2 b j) + tileSum 2 (xblk m c t) (lblk m c t) b j := by
  rw [outsAt0_C m c t h0 h1]
  dsimp only
  exact ⟨KernelBody.out_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
    KernelBody.out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j,
    KernelBody.out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 b j⟩

/-- What the three accumulators hold after point n of the grid (core n / 64, step n % 64): the histograms over the
    samples of that core's half seen so far, rows 32768 (n / 64) up to 512 n + 512. -/
def AccInv (c : Dev nD) (n : ℕ) (hn : n < cfg0.N) : Prop :=
  ∀ (b : Fin 15) (j : Fin 1000),
    (outsAt0 m c n hn).2.2.2.1 (ix2 b j) = histOn 0 (Xarr m c) (Larr m c) (32768 * (n / 64)) (512 * n + 512) b j
    ∧ (outsAt0 m c n hn).2.2.2.2.1 (ix2 b j) = histOn 1 (Xarr m c) (Larr m c) (32768 * (n / 64)) (512 * n + 512) b j
    ∧ (outsAt0 m c n hn).2.2.2.2.2 (ix2 b j) = histOn 2 (Xarr m c) (Larr m c) (32768 * (n / 64)) (512 * n + 512) b j

/-- The accumulators' contents after every point, by induction on the point: a core's first point starts from the
    empty range, every later point appends its tile's 512 samples to the range of the point before. -/
theorem acc_inv (c : Dev nD) (n : ℕ) (hn : n < cfg0.N) : AccInv m c n hn := by
  have hN : cfg0.N = 128 := N_0
  induction n with
  | zero =>
    intro b j
    have hA := step_first m c ⟨0, hn⟩ (Nat.zero_mod _) (by show ¬0 % 64 = 63; decide) b j
    have hT := fun k => tile_hist m c ⟨0, hn⟩ (by show 0 < 128; decide) k b j
    exact ⟨hA.1.trans (hT 0), hA.2.1.trans (hT 1), hA.2.2.trans (hT 2)⟩
  | succ n ih =>
    have ihn := ih (Nat.lt_of_succ_lt hn)
    intro b j
    have hlt : n + 1 < 128 := by omega
    have hT := fun k => tile_hist m c ⟨n + 1, hn⟩ hlt k b j
    by_cases h0 : (n + 1) % 64 = 0
    · have hA := step_first m c ⟨n + 1, hn⟩ h0 (by show ¬(n + 1) % 64 = 63; omega) b j
      have e : 32768 * ((n + 1) / 64) = 512 * (n + 1) := by omega
      rw [e]
      exact ⟨hA.1.trans (hT 0), hA.2.1.trans (hT 1), hA.2.2.trans (hT 2)⟩
    · have hB := step_later m c ⟨n + 1, hn⟩ h0 b j
      have e : 32768 * ((n + 1) / 64) = 32768 * (n / 64) := by omega
      have l1 : 32768 * (n / 64) ≤ 512 * (n + 1) := by omega
      have l2 : 512 * (n + 1) ≤ 512 * (n + 1) + 512 := by omega
      have e2 : 512 * n + 512 = 512 * (n + 1) := by omega
      have ih' := ihn b j
      rw [e2] at ih'
      rw [e]
      refine ⟨hB.1.trans ?_, hB.2.1.trans ?_, hB.2.2.trans ?_⟩
      · exact (congrArg₂ (· + ·) ih'.1 (hT 0)).trans (histOn_append 0 _ _ l1 l2 b j)
      · exact (congrArg₂ (· + ·) ih'.2.1 (hT 1)).trans (histOn_append 1 _ _ l1 l2 b j)
      · exact (congrArg₂ (· + ·) ih'.2.2 (hT 2)).trans (histOn_append 2 _ _ l1 l2 b j)

/-- At a core's last point the three output blocks hold the histograms over the core's whole half. -/
theorem out_inv (c : Dev nD) (t : Fin cfg0.N) (h1 : t.val % 64 = 63) (b : Fin 15) (j : Fin 1000) :
    (outsAt0 m c t.val t.isLt).1 (ix3 (0 : Fin 1) b j)
      = histOn 0 (Xarr m c) (Larr m c) (32768 * (t.val / 64)) (32768 * (t.val / 64) + 32768) b j
    ∧ (outsAt0 m c t.val t.isLt).2.1 (ix3 (0 : Fin 1) b j)
      = histOn 1 (Xarr m c) (Larr m c) (32768 * (t.val / 64)) (32768 * (t.val / 64) + 32768) b j
    ∧ (outsAt0 m c t.val t.isLt).2.2.1 (ix3 (0 : Fin 1) b j)
      = histOn 2 (Xarr m c) (Larr m c) (32768 * (t.val / 64)) (32768 * (t.val / 64) + 32768) b j := by
  have hN : cfg0.N = 128 := N_0
  have hlt : t.val < 128 := by have := t.isLt; omega
  have hC := step_last m c t (by omega) h1 b j
  have hT := fun k => tile_hist m c t hlt k b j
  have ih := acc_inv m c (t.val - 1) (Nat.lt_of_le_of_lt (Nat.sub_le _ _) t.isLt) b j
  have e : 32768 * ((t.val - 1) / 64) = 32768 * (t.val / 64) := by omega
  have e2 : 512 * (t.val - 1) + 512 = 512 * t.val := by omega
  have e3 : 512 * t.val + 512 = 32768 * (t.val / 64) + 32768 := by omega
  have l1 : 32768 * (t.val / 64) ≤ 512 * t.val := by omega
  have l2 : 512 * t.val ≤ 32768 * (t.val / 64) + 32768 := by omega
  rw [e, e2] at ih
  rw [e3] at hT
  refine ⟨hC.1.trans ?_, hC.2.1.trans ?_, hC.2.2.trans ?_⟩
  · exact (congrArg₂ (· + ·) ih.1 (hT 0)).trans (histOn_append 0 _ _ l1 l2 b j)
  · exact (congrArg₂ (· + ·) ih.2.1 (hT 1)).trans (histOn_append 1 _ _ l1 l2 b j)
  · exact (congrArg₂ (· + ·) ih.2.2 (hT 2)).trans (histOn_append 2 _ _ l1 l2 b j)

end Cert.Ece

end
-- ==== Proof.KernelArrays.lean ====
/-
  The three output arrays after the run. Output k is an array [2, 15, 1000] whose block q (the core's) is written
  back once, at the core's last point 64 q + 63, with accumulator k's final contents: the histogram of kind k over
  the core's half of the samples, 32768 q up to 32768 q + 32767. The two blocks cover the array, so the array ends
  holding these per-core histograms. The host's sum over the leading axis, started from zero, then adds the two
  halves into the histogram over all 65536 samples.
-/
import proofs.«418438_j56461640073709_1_alg».proof.Proof.KernelAccum
import Idealize.ShloMosaic.Lib.Pipeline.Value
import Idealize.ShloMosaic.Lib.StableHlo.Run

set_option maxRecDepth 16384

noncomputable section

namespace Cert.Ece

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The histogram of kind k over each core's half of the samples, as an array [2, 15, 1000]: core q takes the samples
    32768 q up to 32768 q + 32767. -/
def coreHist (k : Fin 3) (X : FVec Ideal ⟨2, ![65536, 1000]⟩ .f32) (L : IVec ⟨1, ![65536]⟩ 32) :
    FVec Ideal ⟨3, ![2, 15, 1000]⟩ .f32 :=
  fun i => histOn k X L (32768 * (i 0).val) (32768 * (i 0).val + 32768) ⟨(i 1).val, (i 1).isLt⟩ ⟨(i 2).val, (i 2).isLt⟩

theorem coreHist_ix3 (k : Fin 3) (X : FVec Ideal ⟨2, ![65536, 1000]⟩ .f32) (L : IVec ⟨1, ![65536]⟩ 32)
    (q : Fin 2) (b : Fin 15) (j : Fin 1000) :
    coreHist k X L (ix3 q b j) = histOn k X L (32768 * q.val) (32768 * q.val + 32768) b j := rfl

/-- The output windows' block indices: core t / 64 on the leading axis, the whole of the other two. -/
theorem idx_out : ∀ t : Fin cfg0.N,
    win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0 :=
  (by decide +kernel : ∀ t : Fin grid0.N, _)

/-- What a flushing point writes back into output 0: its block of the per-core histogram of kind 0. -/
theorem flushed2 (c : Dev nD) (t : Fin cfg0.N) (hf : (cfg0.win 2).flush t = true) :
    (dats m 0 c).flushed 2 t = ((cfg0.win 2).blk t).view.read (Elt Ideal) (coreHist 0 (Xarr m c) (Larr m c)) := by
  have hN : cfg0.N = 128 := N_0
  have hlt : t.val < 128 := by have := t.isLt; omega
  have h63 : t.val % 64 = 63 := (flush0_2 t).mp hf
  obtain ⟨e0, e1, e2, -⟩ := idx_out t
  show (cfg0.win 2).cut (grid0.coords t) ((dats m 0 c).after 2 t) = _
  rw [after0_2]
  show (outsAt0 m c t.val t.isLt).1 = fun y : S1x15x1000.Idx => coreHist 0 (Xarr m c) (Larr m c) (((cfg0.win 2).blk t).view.emb y)
  funext y
  obtain ⟨q, b, j, rfl⟩ : ∃ (q : Fin 1) (b : Fin 15) (j : Fin 1000), y = ix3 q b j := ⟨y 0, y 1, y 2, eq_ix3 y⟩
  obtain rfl : q = 0 := Subsingleton.elim _ _
  refine ((out_inv m c t h63 b j).1).trans ?_
  refine (coreHist_ix3 0 (Xarr m c) (Larr m c) ⟨t.val / 64, by omega⟩ b j).symm.trans ?_
  refine congrArg (coreHist 0 (Xarr m c) (Larr m c)) (funext fun a => Fin.ext ?_)
  match a with
  | ⟨0, _⟩ => show t.val / 64 = win0_2.index t (0 : Fin 3) * 1 + 1 * 0; rw [e0]; omega
  | ⟨1, _⟩ => show b.val = win0_2.index t (1 : Fin 3) * 15 + 1 * b.val; rw [e1]; omega
  | ⟨2, _⟩ => show j.val = win0_2.index t (2 : Fin 3) * 1000 + 1 * j.val; rw [e2]; omega

/-- An index of output 0's array is in point t's block iff each coordinate is in the block's range on its axis. -/
theorem mem_blk2 (t : Fin cfg0.N) (i : S2x15x1000.Idx) :
    i ∈ ((cfg0.win 2).blk t).view.set ↔ ∀ a : Fin 3, win0_2.index t a * S1x15x1000.size a ≤ (i a).val ∧ (i a).val < win0_2.index t a * S1x15x1000.size a + S1x15x1000.size a := by
  show i ∈ ((View.whole main_v1_0).slice (win0_2.rect t)).set ↔ _
  rw [View.set_slice_whole, Rect.mem_set_unit]
  exact Iff.rfl

/-- Output 0 ends holding the per-core histograms of kind 0: core q's block is written at point 64 q + 63. -/
theorem final2 (c : Dev nD) : (dats m 0 c).arrAt 2 cfg0.N = coreHist 0 (Xarr m c) (Larr m c) :=
  (dats m 0 c).arrAt_eq_of_cover 2 (coreHist 0 (Xarr m c) (Larr m c)) (flushed2 m c) fun i => by
    have hN : cfg0.N = 128 := N_0
    have h0 : (i 0).val < 2 := (i 0).isLt
    have h1 : (i 1).val < 15 := (i 1).isLt
    have h2 : (i 2).val < 1000 := (i 2).isLt
    refine ⟨⟨64 * (i 0).val + 63, by omega⟩, (flush0_2 _).mpr (by show (64 * (i 0).val + 63) % 64 = 63; omega), ?_⟩
    obtain ⟨e0, e1, e2, -⟩ := idx_out ⟨64 * (i 0).val + 63, by omega⟩
    rw [mem_blk2]
    intro a
    match a with
    | ⟨0, _⟩ => show win0_2.index _ (0 : Fin 3) * 1 ≤ (i 0).val ∧ (i 0).val < win0_2.index _ (0 : Fin 3) * 1 + 1; rw [e0]; show (64 * (i 0).val + 63) / 64 * 1 ≤ (i 0).val ∧ (i 0).val < (64 * (i 0).val + 63) / 64 * 1 + 1; omega
    | ⟨1, _⟩ => show win0_2.index _ (1 : Fin 3) * 15 ≤ (i 1).val ∧ (i 1).val < win0_2.index _ (1 : Fin 3) * 15 + 15; rw [e1]; omega
    | ⟨2, _⟩ => show win0_2.index _ (2 : Fin 3) * 1000 ≤ (i 2).val ∧ (i 2).val < win0_2.index _ (2 : Fin 3) * 1000 + 1000; rw [e2]; omega

/-- What a flushing point writes back into output 1: its block of the per-core histogram of kind 1. -/
theorem flushed3 (c : Dev nD) (t : Fin cfg0.N) (hf : (cfg0.win 3).flush t = true) :
    (dats m 0 c).flushed 3 t = ((cfg0.win 3).blk t).view.read (Elt Ideal) (coreHist 1 (Xarr m c) (Larr m c)) := by
  have hN : cfg0.N = 128 := N_0
  have hlt : t.val < 128 := by have := t.isLt; omega
  have h63 : t.val % 64 = 63 := (flush0_3 t).mp hf
  obtain ⟨-, -, -, e0, e1, e2, -⟩ := idx_out t
  show (cfg0.win 3).cut (grid0.coords t) ((dats m 0 c).after 3 t) = _
  rw [after0_3]
  show (outsAt0 m c t.val t.isLt).2.1 = fun y : S1x15x1000.Idx => coreHist 1 (Xarr m c) (Larr m c) (((cfg0.win 3).blk t).view.emb y)
  funext y
  obtain ⟨q, b, j, rfl⟩ : ∃ (q : Fin 1) (b : Fin 15) (j : Fin 1000), y = ix3 q b j := ⟨y 0, y 1, y 2, eq_ix3 y⟩
  obtain rfl : q = 0 := Subsingleton.elim _ _
  refine ((out_inv m c t h63 b j).2.1).trans ?_
  refine (coreHist_ix3 1 (Xarr m c) (Larr m c) ⟨t.val / 64, by omega⟩ b j).symm.trans ?_
  refine congrArg (coreHist 1 (Xarr m c) (Larr m c)) (funext fun a => Fin.ext ?_)
  match a with
  | ⟨0, _⟩ => show t.val / 64 = win0_3.index t (0 : Fin 3) * 1 + 1 * 0; rw [e0]; omega
  | ⟨1, _⟩ => show b.val = win0_3.index t (1 : Fin 3) * 15 + 1 * b.val; rw [e1]; omega
  | ⟨2, _⟩ => show j.val = win0_3.index t (2 : Fin 3) * 1000 + 1 * j.val; rw [e2]; omega

/-- An index of output 1's array is in point t's block iff each coordinate is in the block's range on its axis. -/
theorem mem_blk3 (t : Fin cfg0.N) (i : S2x15x1000.Idx) :
    i ∈ ((cfg0.win 3).blk t).view.set ↔ ∀ a : Fin 3, win0_3.index t a * S1x15x1000.size a ≤ (i a).val ∧ (i a).val < win0_3.index t a * S1x15x1000.size a + S1x15x1000.size a := by
  show i ∈ ((View.whole main_v1_1).slice (win0_3.rect t)).set ↔ _
  rw [View.set_slice_whole, Rect.mem_set_unit]
  exact Iff.rfl

/-- Output 1 ends holding the per-core histograms of kind 1: core q's block is written at point 64 q + 63. -/
theorem final3 (c : Dev nD) : (dats m 0 c).arrAt 3 cfg0.N = coreHist 1 (Xarr m c) (Larr m c) :=
  (dats m 0 c).arrAt_eq_of_cover 3 (coreHist 1 (Xarr m c) (Larr m c)) (flushed3 m c) fun i => by
    have hN : cfg0.N = 128 := N_0
    have h0 : (i 0).val < 2 := (i 0).isLt
    have h1 : (i 1).val < 15 := (i 1).isLt
    have h2 : (i 2).val < 1000 := (i 2).isLt
    refine ⟨⟨64 * (i 0).val + 63, by omega⟩, (flush0_3 _).mpr (by show (64 * (i 0).val + 63) % 64 = 63; omega), ?_⟩
    obtain ⟨-, -, -, e0, e1, e2, -⟩ := idx_out ⟨64 * (i 0).val + 63, by omega⟩
    rw [mem_blk3]
    intro a
    match a with
    | ⟨0, _⟩ => show win0_3.index _ (0 : Fin 3) * 1 ≤ (i 0).val ∧ (i 0).val < win0_3.index _ (0 : Fin 3) * 1 + 1; rw [e0]; show (64 * (i 0).val + 63) / 64 * 1 ≤ (i 0).val ∧ (i 0).val < (64 * (i 0).val + 63) / 64 * 1 + 1; omega
    | ⟨1, _⟩ => show win0_3.index _ (1 : Fin 3) * 15 ≤ (i 1).val ∧ (i 1).val < win0_3.index _ (1 : Fin 3) * 15 + 15; rw [e1]; omega
    | ⟨2, _⟩ => show win0_3.index _ (2 : Fin 3) * 1000 ≤ (i 2).val ∧ (i 2).val < win0_3.index _ (2 : Fin 3) * 1000 + 1000; rw [e2]; omega

/-- What a flushing point writes back into output 2: its block of the per-core histogram of kind 2. -/
theorem flushed4 (c : Dev nD) (t : Fin cfg0.N) (hf : (cfg0.win 4).flush t = true) :
    (dats m 0 c).flushed 4 t = ((cfg0.win 4).blk t).view.read (Elt Ideal) (coreHist 2 (Xarr m c) (Larr m c)) := by
  have hN : cfg0.N = 128 := N_0
  have hlt : t.val < 128 := by have := t.isLt; omega
  have h63 : t.val % 64 = 63 := (flush0_4 t).mp hf
  obtain ⟨-, -, -, -, -, -, e0, e1, e2⟩ := idx_out t
  show (cfg0.win 4).cut (grid0.coords t) ((dats m 0 c).after 4 t) = _
  rw [after0_4]
  show (outsAt0 m c t.val t.isLt).2.2.1 = fun y : S1x15x1000.Idx => coreHist 2 (Xarr m c) (Larr m c) (((cfg0.win 4).blk t).view.emb y)
  funext y
  obtain ⟨q, b, j, rfl⟩ : ∃ (q : Fin 1) (b : Fin 15) (j : Fin 1000), y = ix3 q b j := ⟨y 0, y 1, y 2, eq_ix3 y⟩
  obtain rfl : q = 0 := Subsingleton.elim _ _
  refine ((out_inv m c t h63 b j).2.2).trans ?_
  refine (coreHist_ix3 2 (Xarr m c) (Larr m c) ⟨t.val / 64, by omega⟩ b j).symm.trans ?_
  refine congrArg (coreHist 2 (Xarr m c) (Larr m c)) (funext fun a => Fin.ext ?_)
  match a with
  | ⟨0, _⟩ => show t.val / 64 = win0_4.index t (0 : Fin 3) * 1 + 1 * 0; rw [e0]; omega
  | ⟨1, _⟩ => show b.val = win0_4.index t (1 : Fin 3) * 15 + 1 * b.val; rw [e1]; omega
  | ⟨2, _⟩ => show j.val = win0_4.index t (2 : Fin 3) * 1000 + 1 * j.val; rw [e2]; omega

/-- An index of output 2's array is in point t's block iff each coordinate is in the block's range on its axis. -/
theorem mem_blk4 (t : Fin cfg0.N) (i : S2x15x1000.Idx) :
    i ∈ ((cfg0.win 4).blk t).view.set ↔ ∀ a : Fin 3, win0_4.index t a * S1x15x1000.size a ≤ (i a).val ∧ (i a).val < win0_4.index t a * S1x15x1000.size a + S1x15x1000.size a := by
  show i ∈ ((View.whole main_v1_2).slice (win0_4.rect t)).set ↔ _
  rw [View.set_slice_whole, Rect.mem_set_unit]
  exact Iff.rfl

/-- Output 2 ends holding the per-core histograms of kind 2: core q's block is written at point 64 q + 63. -/
theorem final4 (c : Dev nD) : (dats m 0 c).arrAt 4 cfg0.N = coreHist 2 (Xarr m c) (Larr m c) :=
  (dats m 0 c).arrAt_eq_of_cover 4 (coreHist 2 (Xarr m c) (Larr m c)) (flushed4 m c) fun i => by
    have hN : cfg0.N = 128 := N_0
    have h0 : (i 0).val < 2 := (i 0).isLt
    have h1 : (i 1).val < 15 := (i 1).isLt
    have h2 : (i 2).val < 1000 := (i 2).isLt
    refine ⟨⟨64 * (i 0).val + 63, by omega⟩, (flush0_4 _).mpr (by show (64 * (i 0).val + 63) % 64 = 63; omega), ?_⟩
    obtain ⟨-, -, -, -, -, -, e0, e1, e2⟩ := idx_out ⟨64 * (i 0).val + 63, by omega⟩
    rw [mem_blk4]
    intro a
    match a with
    | ⟨0, _⟩ => show win0_4.index _ (0 : Fin 3) * 1 ≤ (i 0).val ∧ (i 0).val < win0_4.index _ (0 : Fin 3) * 1 + 1; rw [e0]; show (64 * (i 0).val + 63) / 64 * 1 ≤ (i 0).val ∧ (i 0).val < (64 * (i 0).val + 63) / 64 * 1 + 1; omega
    | ⟨1, _⟩ => show win0_4.index _ (1 : Fin 3) * 15 ≤ (i 1).val ∧ (i 1).val < win0_4.index _ (1 : Fin 3) * 15 + 15; rw [e1]; omega
    | ⟨2, _⟩ => show win0_4.index _ (2 : Fin 3) * 1000 ≤ (i 2).val ∧ (i 2).val < win0_4.index _ (2 : Fin 3) * 1000 + 1000; rw [e2]; omega

/-- A sum over two indices. -/
theorem sum_fin_two (f : Fin 2 → EReal) : ∑ q : Fin 2, f q = f 0 + f 1 := Fin.sum_univ_two f

/-- Adding the two cores' blocks, from the zero the host's sum starts at, gives the histogram over all 65536 samples. -/
theorem reduce_cores (k : Fin 3) (X : FVec Ideal ⟨2, ![65536, 1000]⟩ .f32) (L : IVec ⟨1, ![65536]⟩ 32) :
    Host.reduceAdd (F := Ideal) (coreHist k X L) (constant (F := Ideal) S_ .f32 0x00000000#32)
        Facts₀.reducesTo_S2x15x1000_S15x1000_d0 Facts₀.h_S_ = hist k X L := by
  funext i
  obtain ⟨b, j, rfl⟩ : ∃ (b : Fin 15) (j : Fin 1000), i = ix2 b j := ⟨i 0, i 1, eq_ix2 i⟩
  have hR : S2x15x1000.Reduces [0] S15x1000 := by decide
  have hl : ∀ q : Fin 2, hR.lift (ix2 b j) q = ix3 q b j := fun q => funext fun a => Fin.ext (by
    match a with
    | ⟨0, _⟩ => rfl
    | ⟨1, _⟩ => rfl
    | ⟨2, _⟩ => rfl)
  refine (Ideal.hostReduceAdd_single Facts₀.reducesTo_S2x15x1000_S15x1000_d0 hR (coreHist k X L) _ (ix2 b j)).trans ?_
  show Ideal.ofBits .f32 0x00000000#32 + ∑ q : Fin 2, coreHist k X L (hR.lift (ix2 b j) q) = _
  rw [sum_fin_two, hl 0, hl 1, coreHist_ix3, coreHist_ix3, Ideal.ofBits_zero_f32, zero_add, hist_ix2]
  exact histOn_append k X L (by decide) (by decide) b j

end Cert.Ece

end
-- ==== Proof.KernelValue.lean ====
/-
  The kernel program's result as a function of its arguments. After point t = 64 c + s of the grid (core c, step s)
  accumulator k holds the histogram of kind k over the samples of core c's half seen so far, rows 32768 c up to
  512 t + 512: at a core's first point it is reset and takes the first tile, afterwards each point adds its tile. At a
  core's last point the accumulators are written to block c of the three outputs [2, 15, 1000]. The host then adds the
  two cores' blocks, which gives the histograms over all 65536 samples, and applies the closing formula.
-/
import proofs.«418438_j56461640073709_1_alg».proof.Proof.KernelArrays

noncomputable section

namespace Cert.Ece

open Idealize.ShloMosaic Idealize.ShloMosaic.ValueIdx Idealize.ShloMosaic.TcCoe Idealize.SL.Sem Cert.KernelIdeal Cert.KernelIdeal.Gen

set_option maxHeartbeats 2000000 in
/-- After the run the program's result is the closing formula of the three histograms over all samples: the lines
    after the region add each output's two blocks and apply the closing formula's operations in the same order. -/
theorem tail_eq (m : (ℓ : Loc nD τ sig) → Buf (Elt Ideal) ℓ)
    (hb : (⟨0, ![]⟩ : Shape).BroadcastsInDim ⟨2, ![15, 1000]⟩ (![] : Fin 0 → Fin 2))
    (hr : (⟨2, ![15, 1000]⟩ : Shape).ReducesTo [0, 1] ⟨0, ![]⟩)
    (h0 : 0 < (⟨0, ![]⟩ : Shape).numel)
    (hc : (⟨0, ![]⟩ : Shape).ShapeCasts ⟨1, ![1]⟩)
    (c : Dev nD) :
    Pipeline.afterTail₀ cfgs (dats m) 0 (V0 m) [hostOps1] c main_v16
      = tail hb hr h0 hc (hist 0 (Xarr m c) (Larr m c)) (hist 1 (Xarr m c) (Larr m c)) (hist 2 (Xarr m c) (Larr m c)) := by
  have e2 : Pipeline.withArrays (cfgs 0).spec c (V0 m c) (fun w => (dats m 0 c).arrAt w (cfgs 0).N) (Proc.devRef .tc main_v1_0)
      = coreHist 0 (Xarr m c) (Larr m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1)
      = coreHist 1 (Xarr m c) (Larr m c) :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v1_2)
      = coreHist 2 (Xarr m c) (Larr m c) :=
    (Pipeline.withArrays_arr spec0 launch0.win.arr_inj c _ _ 4).trans (final4 m c)
  unfold Pipeline.afterTail₀
  simp only [List.flatten_cons, List.flatten_nil, List.append_nil]
  after_results
  rw [e2, e3, e4, reduce_cores, reduce_cores, reduce_cores]
  generalize hist 0 (Xarr m c) (Larr m c) = conf
  generalize hist 1 (Xarr m c) (Larr m c) = count
  generalize hist 2 (Xarr m c) (Larr m c) = correct
  rfl

/-- The kernel program's run: it terminates with its result at the closing formula of the three histograms over all
    samples, the arguments unchanged. The shape relations of the closing formula are arbitrary witnesses. -/
theorem kernel_run
    (hb : (⟨0, ![]⟩ : Shape).BroadcastsInDim ⟨2, ![15, 1000]⟩ (![] : Fin 0 → Fin 2))
    (hr : (⟨2, ![15, 1000]⟩ : Shape).ReducesTo [0, 1] ⟨0, ![]⟩)
    (h0 : 0 < (⟨0, ![]⟩ : Shape).numel)
    (hc : (⟨0, ![]⟩ : Shape).ShapeCasts ⟨1, ![1]⟩)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = tail hb hr h0 hc
            (hist 0 (m ((c.tc : Thread nD τ).loc main_arg0)) (m ((c.tc : Thread nD τ).loc main_arg1)))
            (hist 1 (m ((c.tc : Thread nD τ).loc main_arg0)) (m ((c.tc : Thread nD τ).loc main_arg1)))
            (hist 2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v16 (Pipeline.mem_restRefs_of main_v16 (by decide) (by decide))).trans (tail_eq m hb hr h0 hc c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main (F := Ideal) m ρ)

end Cert.Ece

end
-- ==== Proof.RefStages.lean ====
/-
  The reference's first stages read at an entry (n, j): the softmax probability of class j for sample n, its bin
  word and its valid bit are the specification's prob, binWord and validBit of sample n's row of logits.
-/
import proofs.«418438_j56461640073709_1_alg».proof.Proof.GenRefRead
import proofs.«418438_j56461640073709_1_alg».proof.Proof.Spec

noncomputable section

namespace Cert.Ece.Ref

open Idealize.ShloMosaic Idealize.ShloMosaic.ValueIdx Cert.ReferenceIdeal Cert.ReferenceIdeal.Gen Cert.ReferenceIdeal.ReadP Cert.Ece

/-- Row n's index with column k put back on the reduced axis is (n, k). -/
private theorem lift_row (h : S65536x1000.Reduces [1] S65536) (n : Fin 65536) (k : Fin (S65536x1000.size 1)) :
    h.lift (ix1 n) k = ix2 n (⟨k.val, k.isLt⟩ : Fin 1000) := by
  funext c; apply Fin.ext
  fin_cases c <;> rfl

/-- The reduce with a maximum body from minus infinity over the classes is the row's maximum. -/
theorem v0_apply (X : FVec Ideal S65536x1000 .f32) (n : Fin 65536) :
    val_main_v0 (F := Ideal) X (ix1 n) = rowMax (rowOf X n) := by
  have h : S65536x1000.Reduces [1] S65536 := by decide
  unfold val_main_v0
  rw [Host.reduce_eq_fold_single FloatOps.maximumf X _ reducesTo_S65536x1000_S65536_d1 h h_S_]
  have hf : (X ∘ h.lift (ix1 n)) = rowOf X n := funext fun k => congrArg X (lift_row h n k)
  unfold rowMax
  exact congrArg (fun f => Finset.fold max (Ideal.ofBits .f32 0xFF800000#32) f (Finset.univ : Finset (Fin 1000))) hf

/-- The maximum of minus infinity and the row's maximum is the row's maximum. -/
theorem v2_apply (X : FVec Ideal S65536x1000 .f32) (n : Fin 65536) :
    val_main_v2 (F := Ideal) X (ix1 n) = rowMax (rowOf X n) := by
  rw [val_main_v2_apply, val_main_v1_apply, val_main_cst_0_apply, v0_apply]
  show max (Ideal.ofBits .f32 0xFF800000#32) (rowMax (rowOf X n)) = rowMax (rowOf X n)
  unfold rowMax
  exact max_eq_right ((Finset.le_fold_max _).mpr (Or.inl le_rfl))

/-- The row's maximum, broadcast along the classes. -/
theorem v4_apply (X : FVec Ideal S65536x1000 .f32) (n : Fin 65536) (j : Fin 1000) :
    val_main_v4 (F := Ideal) X (ix2 n j) = rowMax (rowOf X n) := by
  rw [val_main_v4_apply, val_main_v3_apply]
  refine Eq.trans (congrArg (val_main_v2 (F := Ideal) X) ?_) (v2_apply X n)
  exact funext fun a => Fin.ext (by match a with | ⟨0, _⟩ => rfl)

/-- exp (x_j - M). -/
theorem v6_apply (X : FVec Ideal S65536x1000 .f32) (n : Fin 65536) (j : Fin 1000) :
    val_main_v6 (F := Ideal) X (ix2 n j) = expShift (rowOf X n) j := by
  rw [val_main_v6_apply, val_main_v5_apply, v4_apply]
  rfl

/-- The row's sum of exponentials. -/
theorem v7_apply (X : FVec Ideal S65536x1000 .f32) (n : Fin 65536) :
    val_main_v7 (F := Ideal) X (ix1 n) = ∑ k : Fin 1000, expShift (rowOf X n) k := by
  rw [val_main_v7_apply, val_main_cst_1_apply]
  show Ideal.ofBits .f32 0x00000000#32 + _ = _
  rw [Ideal.ofBits_zero_f32, zero_add]
  refine Finset.sum_congr rfl (fun k _ => ?_)
  refine Eq.trans (congrArg (val_main_v6 (F := Ideal) X) ?_) (v6_apply X n k)
  exact funext fun a => Fin.ext (by match a with | ⟨0, _⟩ => rfl | ⟨1, _⟩ => rfl)

/-- The row's sum of exponentials, broadcast along the classes. -/
theorem v9_apply (X : FVec Ideal S65536x1000 .f32) (n : Fin 65536) (j : Fin 1000) :
    val_main_v9 (F := Ideal) X (ix2 n j) = ∑ k : Fin 1000, expShift (rowOf X n) k := by
  rw [val_main_v9_apply, val_main_v8_apply]
  refine Eq.trans (congrArg (val_main_v7 (F := Ideal) X) ?_) (v7_apply X n)
  exact funext fun a => Fin.ext (by match a with | ⟨0, _⟩ => rfl)

/-- The reference's probabilities: entry (n, j) is the softmax of row n at class j. -/
theorem probs_apply (X : FVec Ideal S65536x1000 .f32) (n : Fin 65536) (j : Fin 1000) :
    val_main_v10 (F := Ideal) X (ix2 n j) = prob (rowOf X n) j := by
  rw [val_main_v10_apply, v6_apply, v9_apply]
  rfl

/-- The reference's bin words: clip (ceil (15 p) - 1, 0, 14) of the probability. -/
theorem bins_apply (X : FVec Ideal S65536x1000 .f32) (n : Fin 65536) (j : Fin 1000) :
    val_main_v17 (F := Ideal) X (ix2 n j) = binWord (prob (rowOf X n) j) := by
  rw [val_main_v17_apply, val_main_call0_v4_apply, val_main_call0_v3_apply, val_main_c_4_apply,
    val_main_call0_v2_apply, val_main_call0_v1_apply, val_main_call0_v0_apply, val_main_c_3_apply,
    val_main_v16_apply, val_main_v15_apply, val_main_c_apply, val_main_v14_apply, val_main_v13_apply,
    val_main_v12_apply, val_main_v11_apply, val_main_cst_2_apply, probs_apply]
  rfl

/-- The reference's valid bits: p > 0. -/
theorem valid_apply (X : FVec Ideal S65536x1000 .f32) (n : Fin 65536) (j : Fin 1000) :
    val_main_v19 (F := Ideal) X (ix2 n j) = validBit (prob (rowOf X n) j) := by
  rw [val_main_v19_apply, val_main_v18_apply, val_main_cst_5_apply, probs_apply]
  rfl

end Cert.Ece.Ref

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefConfCount.lean ====
/-
  The reference's confidence and count histograms. Each is a scatter-add into 15001 segments of the 65,536,000
  flattened entries: entry (n, j') goes to segment bin * 1000 + j' when valid and to the dump segment 15000 otherwise.
  Read at segment b * 1000 + j (b < 15, j < 1000) only the entries with j' = j, bin b and valid land there, so the
  segment holds the sum over the samples of the specification's term.
-/
import proofs.«418438_j56461640073709_1_alg».proof.Proof.RefStages
import proofs.«418438_j56461640073709_1_alg».proof.Proof.LibIndexed

noncomputable section

namespace Cert.Ece.Ref

open Idealize.ShloMosaic Idealize.ShloMosaic.ValueIdx Cert.ReferenceIdeal Cert.ReferenceIdeal.Gen Cert.ReferenceIdeal.ReadP Cert.Ece

/-! ## Sums and words -/

/-- A sum over the flattened index e = B n + j' is the double sum over (n, j'). -/
theorem sum_flat {M : Type*} [AddCommMonoid M] {A B E : ℕ} (hE : A * B = E) (g : Fin E → M) (f : Fin A → Fin B → M)
    (h : ∀ (e : Fin E) (h1 : e.val / B < A) (h2 : e.val % B < B), g e = f ⟨e.val / B, h1⟩ ⟨e.val % B, h2⟩) :
    ∑ e, g e = ∑ n, ∑ j, f n j := by
  subst hE
  rw [← Fintype.sum_prod_type' f]
  refine Fintype.sum_equiv finProdFinEquiv.symm _ _ (fun e => ?_)
  exact h e _ _

/-- A word in [0, 14] times 1000 plus a column below 1000 does not wrap. -/
theorem seg_toInt (w : BitVec 32) (hw : 0 ≤ w.toInt ∧ w.toInt ≤ 14) (j' : Fin 1000) :
    (IntOp.addi (IntOp.muli w 1000#32) (BitVec.ofNat 32 j'.val)).toInt = w.toInt * 1000 + (j'.val : ℤ) := by
  unfold IntOp.addi IntOp.muli
  have hj := j'.isLt
  have hlt := w.isLt
  rw [BitVec.toInt_eq_toNat_cond] at hw ⊢
  rw [BitVec.toInt_eq_toNat_cond]
  simp only [BitVec.toNat_add, BitVec.toNat_mul, BitVec.toNat_ofNat]
  split_ifs at hw ⊢ <;> omega

/-- A word is the word of the natural number b < 15 exactly when its signed value is b. -/
theorem word_eq_iff (w : BitVec 32) (b : Fin 15) : w = BitVec.ofNat 32 b.val ↔ w.toInt = (b.val : ℤ) := by
  have hb := b.isLt
  have hlt := w.isLt
  constructor
  · intro h; subst h
    rw [BitVec.toInt_eq_toNat_cond]
    simp only [BitVec.toNat_ofNat]
    split_ifs <;> omega
  · intro h
    apply BitVec.eq_of_toNat_eq
    rw [BitVec.toInt_eq_toNat_cond] at h
    simp only [BitVec.toNat_ofNat]
    split_ifs at h <;> omega

theorem dump_toInt : (15000#32 : BitVec 32).toInt = 15000 := by decide

theorem bit_cases (v : BitVec 1) : v = 0#1 ∨ v = 1#1 := by
  revert v; decide

/-- The bit as an unsigned number and as the zero-extended signed number are the same value. -/
theorem uitofp_bit (v : BitVec 1) : FloatOps.uitofp (F := Ideal) .f32 v = bitVal v := by
  rcases bit_cases v with rfl | rfl
  · show (((0#1 : BitVec 1).toNat : ℝ) : EReal) = ((((0#1 : BitVec 1).setWidth 32).toInt : ℝ) : EReal)
    norm_num
  · show (((1#1 : BitVec 1).toNat : ℝ) : EReal) = ((((1#1 : BitVec 1).setWidth 32).toInt : ℝ) : EReal)
    have h1 : ((1#1 : BitVec 1).setWidth 32 : BitVec 32).toInt = 1 := by decide
    rw [h1]
    norm_num

theorem bitVal_zero : bitVal 0#1 = 0 := by
  show ((((0#1 : BitVec 1).setWidth 32).toInt : ℝ) : EReal) = 0
  norm_num

/-- The segment word of an entry: bin * 1000 + column where valid, the dump segment 15000 otherwise. -/
def segWord (p : EReal) (j' : Fin 1000) : BitVec 32 :=
  Scalar.select (validBit p) (IntOp.addi (IntOp.muli (binWord p) 1000#32) (BitVec.ofNat 32 j'.val)) 15000#32

/-- One entry (column j' of a sample) lands in segment 1000 b + j exactly when it is valid, j' = j and its bin is b;
    its update is then the sample's weight, and an entry that is not valid has weight 0 in the specification. -/
theorem entry_term (k : Fin 3) (hk : k ≠ 2) (x : Logits) (lab : BitVec 32) (b : Fin 15) (j j' : Fin 1000) :
    (if (segWord (prob x j') j').toInt = ((b.val * 1000 + j.val : ℕ) : ℤ) then weight k (prob x j') j' lab else 0)
      = if j' = j then term k (BitVec.ofNat 32 b.val) x lab j else 0 := by
  have hb := b.isLt
  have hj := j.isLt
  have hj' := j'.isLt
  unfold segWord
  rcases bit_cases (validBit (prob x j')) with hv | hv
  · -- not valid: the dump segment, and a zero weight
    rw [hv, select_zero, dump_toInt, if_neg (by omega)]
    by_cases hjj : j' = j
    · subst hjj
      rw [if_pos rfl]
      unfold term
      have hw : weight k (prob x j') j' lab = Ideal.ofBits .f32 0x00000000#32 := by
        match k, hk with
        | 0, _ => show wConf (prob x j') = _; unfold wConf; rw [hv, select_zero]
        | 1, _ => show wCount (prob x j') = _; unfold wCount; rw [hv, bitVal_zero, Ideal.ofBits_zero_f32]
        | 2, h => exact absurd rfl h
      rw [hw, Ideal.ofBits_zero_f32]
      unfold Scalar.select
      split_ifs <;> rfl
    · rw [if_neg hjj]
  · -- valid: segment bin * 1000 + j'
    rw [hv, select_one, seg_toInt _ (binWord_range _) j']
    have hr := binWord_range (prob x j')
    by_cases hjj : j' = j
    · subst hjj
      rw [if_pos rfl]
      unfold term IntOp.cmpi
      by_cases hbw : binWord (prob x j') = BitVec.ofNat 32 b.val
      · have h1 := (word_eq_iff _ b).mp hbw
        rw [if_pos (by omega)]
        simp only [hbw, beq_self_eq_true, BitVec.ofBool_true]
        exact (select_one _ _).symm
      · have h1 : ¬ (binWord (prob x j')).toInt = (b.val : ℤ) := fun h => hbw ((word_eq_iff _ b).mpr h)
        rw [if_neg (by omega)]
        have : (binWord (prob x j') == BitVec.ofNat 32 b.val) = false := by
          rw [beq_eq_false_iff_ne]; exact hbw
        simp only [this, BitVec.ofBool_false]
        exact ((select_zero _ _).trans Ideal.ofBits_zero_f32).symm
    · have : j'.val ≠ j.val := fun h => hjj (Fin.ext h)
      rw [if_neg hjj, if_neg (by omega)]

/-- A scatter-add from zeros of the 65,536,000 flattened entries, entry e = 1000 n + j' carrying sample n's weight at
    column j' into its segment word's segment, holds at segment 1000 b + j the histogram at (b, j). -/
theorem hist_of_scatter (k : Fin 3) (hk : k ≠ 2) (X : FVec Ideal ⟨2, ![65536, 1000]⟩ .f32) (L : IVec ⟨1, ![65536]⟩ 32)
    (b : Fin 15) (j : Fin 1000)
    (d : ScatterDims ⟨1, ![15001]⟩ ⟨2, ![65536000, 1]⟩ ⟨1, ![65536000]⟩)
    (wf : ScatterDims.WF ⟨1, ![15001]⟩ ⟨2, ![65536000, 1]⟩ ⟨1, ![65536000]⟩ [] [0] [0] 1)
    (hd : d = { updateWindowDims := [], insertedWindowDims := [0], scatterDimsToOperandDims := [0], indexVectorDim := 1, wf := wf })
    (zero : FVec Ideal ⟨1, ![15001]⟩ .f32) (seg : IVec ⟨2, ![65536000, 1]⟩ 32) (upd : FVec Ideal ⟨1, ![65536000]⟩ .f32)
    (hz : ∀ i, zero i = Ideal.ofBits .f32 0x00000000#32)
    (hseg : ∀ (e : Fin 65536000) (h1 : e.val / 1000 < 65536) (h2 : e.val % 1000 < 1000),
      seg (ix2 e (0 : Fin 1)) = segWord (prob (rowOf X ⟨e.val / 1000, h1⟩) ⟨e.val % 1000, h2⟩) ⟨e.val % 1000, h2⟩)
    (hupd : ∀ (e : Fin 65536000) (h1 : e.val / 1000 < 65536) (h2 : e.val % 1000 < 1000),
      upd (ix1 e) = weight k (prob (rowOf X ⟨e.val / 1000, h1⟩) ⟨e.val % 1000, h2⟩) ⟨e.val % 1000, h2⟩ (L (ix1 ⟨e.val / 1000, h1⟩)))
    (m : Fin 15001) (hm : m.val = b.val * 1000 + j.val) :
    Host.scatterAdd (F := Ideal) d zero seg upd (ix1 m) = histOn k X L 0 65536 b j := by
  rw [Cert.Rgcn.Lib.scatterAdd_vec_apply d wf hd, hz, Ideal.ofBits_zero_f32, zero_add, Finset.sum_filter, histOn_all, hm]
  refine (sum_flat (A := 65536) (B := 1000) (by norm_num) _
    (fun n j' => if j' = j then term k (BitVec.ofNat 32 b.val) (rowOf X n) (L (ix1 n)) j else 0) ?_).trans ?_
  · intro e h1 h2
    rw [hseg e h1 h2, hupd e h1 h2]
    exact entry_term k hk _ _ b j _
  · refine Finset.sum_congr rfl (fun n _ => ?_)
    rw [Finset.sum_ite_eq' Finset.univ j (fun _ => term k (BitVec.ofNat 32 b.val) (rowOf X n) (L (ix1 n)) j)]
    rw [if_pos (Finset.mem_univ _)]

/-! ## The reference's segment words and updates at an entry -/

/-- The segment word of entry (n, j'). -/
theorem seg_apply (X : FVec Ideal S65536x1000 .f32) (n : Fin 65536) (j' : Fin 1000) :
    val_main_v26 (F := Ideal) X (ix2 n j') = segWord (prob (rowOf X n) j') j' := by
  rw [val_main_v26_apply, valid_apply, val_main_v25_apply, val_main_v21_apply, bins_apply, val_main_v20_apply,
    val_main_c_6_apply, val_main_v24_apply, val_main_v23_apply, val_main_v22_apply, val_main_call1_v1_apply,
    val_main_call1_v0_apply, val_main_c_7_apply]
  rfl

/-- The confidence update of entry (n, j'): the probability where valid. -/
theorem conf_upd_apply (X : FVec Ideal S65536x1000 .f32) (n : Fin 65536) (j' : Fin 1000) :
    val_main_v27 (F := Ideal) X (ix2 n j') = wConf (prob (rowOf X n) j') := by
  rw [val_main_v27_apply, valid_apply, probs_apply, val_main_call2_v1_apply, val_main_call2_v0_apply,
    val_main_cst_8_apply]
  rfl

/-- The count update of entry (n, j'): the valid bit as a number. -/
theorem count_upd_apply (X : FVec Ideal S65536x1000 .f32) (n : Fin 65536) (j' : Fin 1000) :
    val_main_v35 (F := Ideal) X (ix2 n j') = wCount (prob (rowOf X n) j') := by
  rw [val_main_v35_apply, valid_apply]
  exact uitofp_bit _

/-- The flattened entry e is entry (e / 1000, e % 1000). -/
private theorem flat_idx (e : Fin 65536000) (h1 : e.val / 1000 < 65536) (h2 : e.val % 1000 < 1000) :
    idx_main_v28 (ix1 e) = ix2 (⟨e.val / 1000, h1⟩ : Fin 65536) (⟨e.val % 1000, h2⟩ : Fin 1000) :=
  funext fun a => Fin.ext (by match a with | ⟨0, _⟩ => rfl | ⟨1, _⟩ => rfl)

/-- The segment words as a column, read at row e. -/
theorem seg_col_apply (X : FVec Ideal S65536x1000 .f32) (e : Fin 65536000) (h1 : e.val / 1000 < 65536)
    (h2 : e.val % 1000 < 1000) :
    val_main_v31 (F := Ideal) X (ix2 e (0 : Fin 1))
      = segWord (prob (rowOf X ⟨e.val / 1000, h1⟩) ⟨e.val % 1000, h2⟩) ⟨e.val % 1000, h2⟩ := by
  rw [val_main_v31_apply, val_main_v29_apply]
  refine Eq.trans (congrArg (val_main_v26 (F := Ideal) X) ?_) (seg_apply X _ _)
  exact funext fun a => Fin.ext (by match a with | ⟨0, _⟩ => rfl | ⟨1, _⟩ => rfl)

theorem seg_col_apply' (X : FVec Ideal S65536x1000 .f32) (e : Fin 65536000) (h1 : e.val / 1000 < 65536)
    (h2 : e.val % 1000 < 1000) :
    val_main_v39 (F := Ideal) X (ix2 e (0 : Fin 1))
      = segWord (prob (rowOf X ⟨e.val / 1000, h1⟩) ⟨e.val % 1000, h2⟩) ⟨e.val % 1000, h2⟩ := by
  rw [val_main_v39_apply, val_main_v37_apply]
  refine Eq.trans (congrArg (val_main_v26 (F := Ideal) X) ?_) (seg_apply X _ _)
  exact funext fun a => Fin.ext (by match a with | ⟨0, _⟩ => rfl | ⟨1, _⟩ => rfl)

/-- Segment 1000 b + j read through the slice and the reshape. -/
private theorem seg_idx (b : Fin 15) (j : Fin 1000) (h : b.val * 1000 + j.val < 15001) :
    idx_main_v33 (idx_main_v34 (ix2 b j)) = ix1 (⟨b.val * 1000 + j.val, h⟩ : Fin 15001) :=
  funext fun a => Fin.ext (by match a with | ⟨0, _⟩ => rfl)

/-! ## The two histograms -/

/-- The confidence histogram at (b, j). -/
theorem conf_apply (X : FVec Ideal S65536x1000 .f32) (L : IVec S65536 32) (b : Fin 15) (j : Fin 1000) :
    val_main_v34 (F := Ideal) X (ix2 b j) = histOn 0 X L 0 65536 b j := by
  have hm : b.val * 1000 + j.val < 15001 := by have := b.isLt; have := j.isLt; omega
  rw [val_main_v34_apply, val_main_v33_apply]
  refine Eq.trans (congrArg (val_main_v32 (F := Ideal) X) (seg_idx b j hm)) ?_
  unfold val_main_v32
  refine hist_of_scatter 0 (by decide) X L b j _ scatter_S15001_S65536000x1_S65536000_n_0_0_1_wf rfl _ _ _
    (fun i => ?_) (fun e h1 h2 => seg_col_apply X e h1 h2) (fun e h1 h2 => ?_) _ rfl
  · rw [val_main_v30_apply, val_main_cst_9_apply]
    rfl
  · rw [val_main_v28_apply]
    exact Eq.trans (congrArg (val_main_v27 (F := Ideal) X) (flat_idx e h1 h2)) (conf_upd_apply X _ _)

/-- The count histogram at (b, j). -/
theorem count_apply (X : FVec Ideal S65536x1000 .f32) (L : IVec S65536 32) (b : Fin 15) (j : Fin 1000) :
    val_main_v42 (F := Ideal) X (ix2 b j) = histOn 1 X L 0 65536 b j := by
  have hm : b.val * 1000 + j.val < 15001 := by have := b.isLt; have := j.isLt; omega
  rw [val_main_v42_apply, val_main_v41_apply]
  refine Eq.trans (congrArg (val_main_v40 (F := Ideal) X) (seg_idx b j hm)) ?_
  unfold val_main_v40
  refine hist_of_scatter 1 (by decide) X L b j _ scatter_S15001_S65536000x1_S65536000_n_0_0_1_wf rfl _ _ _
    (fun i => ?_) (fun e h1 h2 => seg_col_apply' X e h1 h2) (fun e h1 h2 => ?_) _ rfl
  · rw [val_main_v38_apply, val_main_cst_10_apply]
    rfl
  · rw [val_main_v36_apply]
    exact Eq.trans (congrArg (val_main_v35 (F := Ideal) X) (flat_idx e h1 h2)) (count_upd_apply X _ _)

end Cert.Ece.Ref

end
-- ==== Proof.LibGatherRowTake.lean ====
/-
  A gather that takes ONE entry from EACH ROW of a table, read at an index.

  For a table x of shape [N, K] and start indices idx of shape [N, 1, 1], the gather whose operand axis 0 is a
  batching axis (paired with axis 0 of the start indices), whose operand axis 1 is collapsed and named by the
  start index, with slice sizes [1, 1] and the index vector on axis 2, has result shape [N, 1]. Its entry (b, 0)
  is x at row b and at the column idx[b, 0, 0] read as a signed integer and clamped into [0, K - 1]: the row
  comes from the batching coordinate, the column from the clamped start, and there is no offset.
  This is what "take along axis 1" of a [N, K] table at an [N, 1] array of positions lowers to.
-/
import Idealize.ShloMosaic.PureOps.ShapeOps
import Idealize.ShloMosaic.Lib.ValueIdx

namespace Idealize.ShloMosaic.ValueIdx

open Idealize.ShloMosaic

section RowTake
variable {α : Type}

/-- The dimension numbers of the row-wise take for a table [N, K], start indices [N, 1, 1] and result [N, 1];
    their conditions are decided on a program's literal shapes. -/
abbrev rowTakeDims (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index [b, 0, 0] of result index (b, 0). -/
abbrev rowTakeIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT (b, 0): the table at row b, column the start index idx[b, 0, 0] read signed and
    clamped into [0, K - 1]. -/
theorem gather_rowTake_apply {N K w : Nat} (hK : 0 < K)
    (wf : GatherDims.WF ⟨2, ![N, K]⟩ ⟨3, ![N, 1, 1]⟩ ⟨2, ![N, 1]⟩ [] [1] [0] [1] [0] 2 ![1, 1])
    (x : (⟨2, ![N, K]⟩ : Shape).Idx → α) (idx : IVec ⟨3, ![N, 1, 1]⟩ w) (y : (⟨2, ![N, 1]⟩ : Shape).Idx) :
    Host.gather (rowTakeDims N K wf) x idx y
      = x (ix2 (⟨(y 0).val, idx2_lt0 y⟩ : Fin N) (⟨min (idx (rowTakeIdx y)).toInt.toNat (K - 1), by omega⟩ : Fin K)) := by
  unfold Host.gather
  congr 1
  funext a
  refine Fin.ext ?_
  show (rowTakeDims N K wf).start y idx a + (rowTakeDims N K wf).batchCoord y a + (rowTakeDims N K wf).offCoord y a = _
  match a with
  | ⟨0, _⟩ =>
    -- the row: no start on a batching axis, no offset; the batching coordinate is the result's row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (rowTakeDims N K wf).operandBatchingDims from List.mem_singleton.mpr rfl)]
    rfl
  | ⟨1, _⟩ =>
    -- the column: the clamped start; axis 1 is neither a batching nor an offset axis
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowTakeDims N K wf).startIndexMap from List.mem_singleton.mpr rfl)]
    have hsi : (rowTakeDims N K wf).siIdx y ⟨List.idxOf (⟨1, by decide⟩ : Fin 2) (rowTakeDims N K wf).startIndexMap,
        List.idxOf_lt_length_iff.2 (List.mem_singleton.mpr rfl)⟩ = rowTakeIdx y := by
      funext b; refine Fin.ext ?_
      match b with
      | ⟨0, _⟩ => rfl
      | ⟨1, _⟩ => exact Nat.lt_one_iff.mp (Fin.isLt _)  -- a coordinate on a unit axis is 0
      | ⟨2, _⟩ => rfl
    rw [hsi]
    rfl

end RowTake

end Idealize.ShloMosaic.ValueIdx
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.RefCorrect.lean ====
/-
  The reference's histogram of correct samples. Sample n contributes one update: with its label l in [0, 1000) the
  row-wise take reads the bin word and the valid bit of entry (n, l), the update goes to segment bin * 1000 + l when
  valid (the dump segment otherwise) and carries the valid bit as a number. Read at segment b * 1000 + j it is the sum
  over the samples of the specification's correctness term.
-/
import proofs.«418438_j56461640073709_1_alg».proof.Proof.RefStages
import proofs.«418438_j56461640073709_1_alg».proof.Proof.LibIndexed
import proofs.«418438_j56461640073709_1_alg».proof.Proof.LibGatherRowTake
import proofs.«418438_j56461640073709_1_alg».proof.Proof.LibReshape
import proofs.«418438_j56461640073709_1_alg».proof.Proof.LibReduceAnd

noncomputable section

namespace Cert.Ece.Ref

open Idealize.ShloMosaic Idealize.ShloMosaic.ValueIdx Cert.ReferenceIdeal Cert.ReferenceIdeal.Gen Cert.ReferenceIdeal.ReadP Cert.Ece

namespace Correct

/-! ### Words, bits and the specification's term -/

/-- A bit as a number is 1 for the bit 1 and 0 for the bit 0. -/
theorem bitVal_eq_ite (v : BitVec 1) : bitVal v = if v = 1#1 then (1 : EReal) else 0 := by
  rcases BitVec.eq_zero_or_eq_one v with h | h <;> subst h
  · have e : ((0#1 : BitVec 1).setWidth 32 : BitVec 32).toInt = 0 := by decide
    unfold bitVal
    rw [e, if_neg (by decide)]
    simp
  · have e : ((1#1 : BitVec 1).setWidth 32 : BitVec 32).toInt = 1 := by decide
    unfold bitVal
    rw [e, if_pos rfl]
    simp

/-- A bit converted unsigned is 1 for the bit 1 and 0 for the bit 0. -/
theorem uitofp_bit_eq_ite (v : BitVec 1) :
    FloatOps.uitofp (F := Ideal) .f32 v = if v = 1#1 then (1 : EReal) else 0 := by
  rcases BitVec.eq_zero_or_eq_one v with h | h <;> subst h
  · show (((0#1 : BitVec 1).toNat : ℝ) : EReal) = _
    rw [if_neg (by decide)]
    simp
  · show (((1#1 : BitVec 1).toNat : ℝ) : EReal) = _
    rw [if_pos rfl]
    simp

/-- A word that reads signed as a natural below k ≤ 2^31 reads unsigned as the same natural. -/
theorem toNat_of_toInt {w : BitVec 32} {k : ℕ} (h0 : 0 ≤ w.toInt) (h1 : w.toInt < (k : ℤ)) (hk : k ≤ 2 ^ 31) :
    (w.toNat : ℤ) = w.toInt ∧ w.toNat < k := by
  have h32 := w.isLt
  unfold BitVec.toInt at h0 h1 ⊢
  split at h0 <;> simp at h0 h1 ⊢ <;> omega

/-- A select on the bit "a = b" is a choice on the proposition a = b. -/
theorem select_cmpi_eq {α : Type} (a b : BitVec 32) (u v : α) :
    Scalar.select (IntOp.cmpi .eq a b) u v = if a = b then u else v := by
  unfold Scalar.select
  by_cases h : a = b
  · rw [if_pos h]
    exact if_pos (IntOp.cmpi_eq.2 h)
  · rw [if_neg h]
    exact if_neg (fun h' => h (IntOp.cmpi_eq.1 h'))

/-- The specification's correctness term is 1 when the sample's bin word is b, its probability is valid and the
    class is its label, and 0 otherwise. -/
theorem term2_eq_ite (b : BitVec 32) (x : Logits) (l : BitVec 32) (j : Fin 1000) :
    term 2 b x l j
      = if binWord (prob x j) = b ∧ validBit (prob x j) = 1#1 ∧ BitVec.ofNat 32 j.val = l then (1 : EReal) else 0 := by
  show Scalar.select (IntOp.cmpi .eq (binWord (prob x j)) b)
    (bitVal (IntOp.andi (validBit (prob x j)) (IntOp.cmpi .eq (BitVec.ofNat 32 j.val) l))) (Ideal.ofBits .f32 0x00000000#32) = _
  rw [select_cmpi_eq, bitVal_eq_ite, Ideal.ofBits_zero_f32]
  simp only [IntOp.andi_eq_one, IntOp.cmpi_eq]
  split_ifs <;> simp_all

/-- A word equals the word of a small natural exactly when it reads unsigned as that natural. -/
theorem eq_ofNat_iff (w : BitVec 32) (k : ℕ) (hk : k < 2 ^ 32) : w = BitVec.ofNat 32 k ↔ w.toNat = k := by
  rw [← BitVec.toNat_inj, BitVec.toNat_ofNat, Nat.mod_eq_of_lt hk]

/-- The segment word of a sample. With bin word in [0, 14] and label in [0, 1000): it reads signed as 1000 b + j,
    with the valid bit set, exactly when the bin word is b, the valid bit is set and the label is j. -/
theorem seg_eq_iff (v : BitVec 1) (bw l : BitVec 32) (hb0 : 0 ≤ bw.toInt) (hb1 : bw.toInt ≤ 14)
    (hl0 : 0 ≤ l.toInt) (hl1 : l.toInt < 1000) (b : Fin 15) (j : Fin 1000) :
    ((Scalar.select v (IntOp.addi (IntOp.muli bw 1000#32) l) 15000#32).toInt = ((b.val * 1000 + j.val : ℕ) : ℤ) ∧ v = 1#1)
      ↔ (bw = BitVec.ofNat 32 b.val ∧ v = 1#1 ∧ BitVec.ofNat 32 j.val = l) := by
  obtain ⟨eb, hbn⟩ := toNat_of_toInt (k := 15) hb0 (by omega) (by norm_num)
  obtain ⟨el, hln⟩ := toNat_of_toInt (k := 1000) hl0 (by omega) (by norm_num)
  have hb := b.isLt
  have hj := j.isLt
  have hn : (IntOp.addi (IntOp.muli bw 1000#32) l).toNat = bw.toNat * 1000 + l.toNat := by
    show (bw * 1000#32 + l).toNat = _
    have c : (1000#32 : BitVec 32).toNat = 1000 := by decide
    rw [BitVec.toNat_add, BitVec.toNat_mul, c]
    omega
  have hs : (IntOp.addi (IntOp.muli bw 1000#32) l).toInt = ((bw.toNat * 1000 + l.toNat : ℕ) : ℤ) := by
    rw [BitVec.toInt_eq_toNat_of_lt (by omega), hn]
  rcases BitVec.eq_zero_or_eq_one v with h | h <;> subst h
  · exact ⟨fun h => absurd h.2 (by decide), fun h => absurd h.2.1 (by decide)⟩
  · rw [select_one, hs, eq_ofNat_iff bw b.val (by omega), eq_comm (a := BitVec.ofNat 32 j.val), eq_ofNat_iff l j.val (by omega)]
    constructor
    · rintro ⟨h, -⟩
      refine ⟨?_, rfl, ?_⟩ <;> omega
    · rintro ⟨h1, -, h2⟩
      refine ⟨?_, rfl⟩
      rw [h1, h2]

/-- The label's column: the label read signed, clamped into [0, 999]. -/
def labCol (l : BitVec 32) : Fin 1000 := ⟨min l.toInt.toNat (1000 - 1), by omega⟩

/-- A class whose word is the label is the label's column. -/
theorem labCol_of_eq (l : BitVec 32) (j : Fin 1000) (h : BitVec.ofNat 32 j.val = l) : labCol l = j := by
  have hj := j.isLt
  subst h
  apply Fin.ext
  show min (BitVec.ofNat 32 j.val).toInt.toNat (1000 - 1) = j.val
  rw [BitVec.toInt_eq_toNat_of_lt (by rw [BitVec.toNat_ofNat]; omega), BitVec.toNat_ofNat]
  omega

/-- ONE SAMPLE'S UPDATE READ AT SEGMENT 1000 b + j IS THE SPECIFICATION'S TERM: the update is the valid bit of the
    label's entry as a number, and it lands on segment (bin word) * 1000 + label when valid, on the dump segment
    otherwise. -/
theorem sample_term (x : Logits) (l : BitVec 32) (hl0 : 0 ≤ l.toInt) (hl1 : l.toInt < 1000) (b : Fin 15) (j : Fin 1000) :
    (if (Scalar.select (validBit (prob x (labCol l)))
          (IntOp.addi (IntOp.muli (binWord (prob x (labCol l))) 1000#32) l) 15000#32).toInt = ((b.val * 1000 + j.val : ℕ) : ℤ)
      then FloatOps.uitofp (F := Ideal) .f32 (validBit (prob x (labCol l))) else 0)
      = term 2 (BitVec.ofNat 32 b.val) x l j := by
  rw [term2_eq_ite, uitofp_bit_eq_ite]
  have key := seg_eq_iff (validBit (prob x (labCol l))) (binWord (prob x (labCol l))) l
    (binWord_range _).1 (binWord_range _).2 hl0 hl1 b j
  by_cases hjl : BitVec.ofNat 32 j.val = l
  · have e := labCol_of_eq l j hjl
    rw [e] at key ⊢
    by_cases hc : (Scalar.select (validBit (prob x j)) (IntOp.addi (IntOp.muli (binWord (prob x j)) 1000#32) l) 15000#32).toInt
        = ((b.val * 1000 + j.val : ℕ) : ℤ)
    · rw [if_pos hc]
      by_cases hv : validBit (prob x j) = 1#1
      · rw [if_pos hv, if_pos (key.1 ⟨hc, hv⟩)]
      · rw [if_neg hv, if_neg (fun h => hv h.2.1)]
    · rw [if_neg hc, if_neg (fun h => hc (key.2 h).1)]
  · have hr : ¬(binWord (prob x j) = BitVec.ofNat 32 b.val ∧ validBit (prob x j) = 1#1 ∧ BitVec.ofNat 32 j.val = l) :=
      fun h => hjl h.2.2
    rw [if_neg hr]
    by_cases hc : (Scalar.select (validBit (prob x (labCol l)))
        (IntOp.addi (IntOp.muli (binWord (prob x (labCol l))) 1000#32) l) 15000#32).toInt = ((b.val * 1000 + j.val : ℕ) : ℤ)
    · rw [if_pos hc]
      by_cases hv : validBit (prob x (labCol l)) = 1#1
      · exact absurd (key.1 ⟨hc, hv⟩).2.2 hjl
      · rw [if_neg hv]
    · rw [if_neg hc]

/-! ### The reference's take of the label's entry -/

section Program

variable (X : FVec Ideal S65536x1000 .f32) (L : IVec S65536 32)

/-- A select on a bit that is not 1 is its second branch. -/
theorem select_of_ne_one {α : Type} (c : BitVec 1) (u v : α) (h : ¬c = 1#1) : Scalar.select c u v = v := if_neg h

/-- The sample of a position of a column [65536, 1]. -/
abbrev rowOfIdx (i : S65536x1.Idx) : Fin 65536 := ⟨(i 0).val, idx2_lt0 i⟩

/-- The take's position word: a label that is not negative is itself. -/
theorem call3_v4_eq (hL : ∀ m : S65536.Idx, 0 ≤ (L m).toInt ∧ (L m).toInt < 1000) (i : S65536x1.Idx) :
    val_main_call3_v4 (F := Ideal) L i = L (idx_main_v43 i) := by
  rw [val_main_call3_v4_apply, val_main_call3_v1_apply, val_main_v43_apply, val_main_call3_v0_apply,
    val_main_call3_c_apply]
  have h0 : (0#32 : BitVec 32).toInt = 0 := by decide
  refine select_of_ne_one _ _ _ (fun h => ?_)
  have h1 := IntOp.cmpi_slt.1 h
  have h2 := (hL (idx_main_v43 i)).1
  rw [h0] at h1
  omega

theorem call3_v5_eq (hL : ∀ m : S65536.Idx, 0 ≤ (L m).toInt ∧ (L m).toInt < 1000) (k : S65536x1x1.Idx) :
    val_main_call3_v5 (F := Ideal) L k = L (idx_main_v43 (idx_main_call3_v5 k)) := by
  rw [val_main_call3_v5_apply, call3_v4_eq L hL]

/-- The in-bounds bit of a label in [0, 999] is 1. -/
theorem call3_v11_eq (hL : ∀ m : S65536.Idx, 0 ≤ (L m).toInt ∧ (L m).toInt < 1000) (k : S65536x1x1.Idx) :
    val_main_call3_v11 (F := Ideal) L k = 1#1 := by
  rw [val_main_call3_v11_apply, val_main_call3_v7_apply, val_main_call3_v10_apply, call3_v5_eq L hL,
    val_main_call3_v6_apply, val_main_call3_c_2_apply, val_main_call3_v9_apply, val_main_call3_v8_apply,
    val_main_call3_c_1_apply]
  have h0 : (0#32 : BitVec 32).toInt = 0 := by decide
  have h9 : (999#32 : BitVec 32).toInt = 999 := by decide
  have hl := hL (idx_main_v43 (idx_main_call3_v5 k))
  exact IntOp.andi_eq_one.2 ⟨IntOp.cmpi_sge.2 (by rw [h0]; exact hl.1), IntOp.cmpi_sle.2 (by rw [h9]; omega)⟩

theorem call3_v12_eq (hL : ∀ m : S65536.Idx, 0 ≤ (L m).toInt ∧ (L m).toInt < 1000) (i : S65536x1.Idx) :
    val_main_call3_v12 (F := Ideal) L i = 1#1 := by
  unfold val_main_call3_v12
  exact Host.reduce_andi_of_forall _ _ _ _ i rfl (fun k _ => call3_v11_eq L hL k)

/-- The second take computes the same position words and in-bounds bits as the first. -/
theorem call4_v5_eq : val_main_call4_v5 (F := Ideal) L = val_main_call3_v5 (F := Ideal) L := rfl

theorem call4_v12_eq : val_main_call4_v12 (F := Ideal) L = val_main_call3_v12 (F := Ideal) L := rfl

/-- The position word the take of row i reads is the label of sample i. -/
theorem call3_v5_take (hL : ∀ m : S65536.Idx, 0 ≤ (L m).toInt ∧ (L m).toInt < 1000) (i : S65536x1.Idx) :
    val_main_call3_v5 (F := Ideal) L (rowTakeIdx i) = L (ix1 (rowOfIdx i)) := by
  rw [call3_v5_eq L hL]
  refine congrArg L (funext fun a => ?_)
  match a with
  | ⟨0, _⟩ => exact Fin.ext (by show (((i 0).val * 1 + 0) * 1 + 0) / 1 = (i 0).val; omega)

/-- The row-wise take of a table T at the labels, read at row i: T at (sample i, the label's column). -/
theorem take_apply {α : Type} (T : S65536x1000.Idx → α) (hL : ∀ m : S65536.Idx, 0 ≤ (L m).toInt ∧ (L m).toInt < 1000)
    (i : S65536x1.Idx) :
    Host.gather gather_S65536x1000_S65536x1x1_S65536x1_n_1_0_0_1_2_11 T (val_main_call3_v5 (F := Ideal) L) i
      = T (ix2 (rowOfIdx i) (labCol (L (ix1 (rowOfIdx i))))) := by
  refine (gather_rowTake_apply (N := 65536) (K := 1000) (by decide) Facts₀.gather_S65536x1000_S65536x1x1_S65536x1_n_1_0_0_1_2_11_wf T
    (val_main_call3_v5 (F := Ideal) L) i).trans ?_
  refine congrArg T (congrArg (ix2 (n1 := 1000) (rowOfIdx i)) (Fin.ext ?_))
  show min (val_main_call3_v5 (F := Ideal) L (rowTakeIdx i)).toInt.toNat (1000 - 1)
    = min (L (ix1 (rowOfIdx i))).toInt.toNat (1000 - 1)
  rw [call3_v5_take L hL]

/-- The taken bin word of sample i: the bin word of the probability of its label's class. -/
theorem v44_eq (hL : ∀ m : S65536.Idx, 0 ≤ (L m).toInt ∧ (L m).toInt < 1000) (i : S65536x1.Idx) :
    val_main_v44 (F := Ideal) X L i
      = binWord (prob (rowOf X (rowOfIdx i)) (labCol (L (ix1 (rowOfIdx i))))) := by
  rw [val_main_v44_apply, call3_v12_eq L hL, select_one]
  exact (take_apply L (val_main_v17 (F := Ideal) X) hL i).trans (bins_apply X _ _)

/-- The taken valid bit of sample i: the valid bit of the probability of its label's class. -/
theorem v47_eq (hL : ∀ m : S65536.Idx, 0 ≤ (L m).toInt ∧ (L m).toInt < 1000) (i : S65536x1.Idx) :
    val_main_v47 (F := Ideal) X L i
      = validBit (prob (rowOf X (rowOfIdx i)) (labCol (L (ix1 (rowOfIdx i))))) := by
  rw [val_main_v47_apply, call4_v12_eq, call3_v12_eq L hL, select_one]
  exact (take_apply L (val_main_v19 (F := Ideal) X) hL i).trans (valid_apply X _ _)

theorem rowOfIdx_v45 (n : Fin 65536) : rowOfIdx (idx_main_v45 (ix1 n)) = n :=
  Fin.ext (by show n.val / 1 = n.val; exact Nat.div_one _)

theorem v45_eq (hL : ∀ m : S65536.Idx, 0 ≤ (L m).toInt ∧ (L m).toInt < 1000) (n : Fin 65536) :
    val_main_v45 (F := Ideal) X L (ix1 n) = binWord (prob (rowOf X n) (labCol (L (ix1 n)))) := by
  rw [val_main_v45_apply, v44_eq X L hL]
  exact congrArg (fun r => binWord (prob (rowOf X r) (labCol (L (ix1 r))))) (rowOfIdx_v45 n)

theorem v48_eq (hL : ∀ m : S65536.Idx, 0 ≤ (L m).toInt ∧ (L m).toInt < 1000) (n : Fin 65536) :
    val_main_v48 (F := Ideal) X L (ix1 n) = validBit (prob (rowOf X n) (labCol (L (ix1 n)))) := by
  rw [val_main_v48_apply, v47_eq X L hL]
  exact congrArg (fun r => validBit (prob (rowOf X r) (labCol (L (ix1 r))))) (rowOfIdx_v45 n)

/-- Sample n's segment word. -/
theorem v55_eq (hL : ∀ m : S65536.Idx, 0 ≤ (L m).toInt ∧ (L m).toInt < 1000) (n : Fin 65536) :
    val_main_v55 (F := Ideal) X L (ix2 n (0 : Fin 1))
      = Scalar.select (validBit (prob (rowOf X n) (labCol (L (ix1 n)))))
          (IntOp.addi (IntOp.muli (binWord (prob (rowOf X n) (labCol (L (ix1 n))))) 1000#32) (L (ix1 n))) 15000#32 := by
  have e : idx_main_v55 (ix2 n (0 : Fin 1)) = ix1 n := funext fun a => by
    match a with
    | ⟨0, _⟩ => rfl
  rw [val_main_v55_apply, e, val_main_v52_apply, val_main_v51_apply, val_main_v50_apply, val_main_v49_apply,
    val_main_c_11_apply, val_main_call5_v1_apply, val_main_call5_v0_apply, val_main_c_12_apply, v48_eq X L hL,
    v45_eq X L hL]

/-- Sample n's update. -/
theorem v53_eq (hL : ∀ m : S65536.Idx, 0 ≤ (L m).toInt ∧ (L m).toInt < 1000) (n : Fin 65536) :
    val_main_v53 (F := Ideal) X L (ix1 n)
      = FloatOps.uitofp (F := Ideal) .f32 (validBit (prob (rowOf X n) (labCol (L (ix1 n))))) := by
  rw [val_main_v53_apply, v48_eq X L hL]

end Program

end Correct

open Correct

/-- The histogram of correct samples at (b, j), for labels in their range. -/
theorem correct_apply (X : FVec Ideal S65536x1000 .f32) (L : IVec S65536 32)
    (hL : ∀ n : Fin 65536, 0 ≤ (L (ix1 n)).toInt ∧ (L (ix1 n)).toInt < 1000) (b : Fin 15) (j : Fin 1000) :
    val_main_v58 (F := Ideal) X L (ix2 b j) = histOn 2 X L 0 65536 b j := by
  have hL' : ∀ m : S65536.Idx, 0 ≤ (L m).toInt ∧ (L m).toInt < 1000 := fun m => by
    have e : m = ix1 (⟨(m 0).val, (m 0).isLt⟩ : Fin 65536) := funext fun a => by
      match a with
      | ⟨0, _⟩ => rfl
    rw [e]
    exact hL _
  have hb := b.isLt
  have hj := j.isLt
  -- the reshape and the slice read segment 1000 b + j of the scatter's result
  have hidx : idx_main_v57 (idx_main_v58 (ix2 b j)) = ix1 (⟨b.val * 1000 + j.val, by omega⟩ : Fin 15001) :=
    funext fun a => by
      match a with
      | ⟨0, _⟩ => rfl
  rw [val_main_v58_apply, val_main_v57_apply, hidx]
  unfold val_main_v56
  -- the scatter-add into zeros at that segment: the sum of the updates whose segment word names it
  refine (Cert.Rgcn.Lib.scatterAdd_vec_apply (N := 15001) (E := 65536) scatter_S15001_S65536x1_S65536_n_0_0_1
    Facts₀.scatter_S15001_S65536x1_S65536_n_0_0_1_wf rfl (val_main_v54 (F := Ideal)) (val_main_v55 (F := Ideal) X L)
    (val_main_v53 (F := Ideal) X L) ⟨b.val * 1000 + j.val, by omega⟩).trans ?_
  rw [val_main_v54_apply, val_main_cst_13_apply]
  show Ideal.ofBits .f32 0x00000000#32 + _ = _
  rw [Ideal.ofBits_zero_f32, zero_add, histOn_all, Finset.sum_filter]
  -- sample by sample
  refine Finset.sum_congr rfl (fun n _ => ?_)
  rw [v55_eq X L hL', v53_eq X L hL']
  exact sample_term (rowOf X n) (L (ix1 n)) (hL n).1 (hL n).2 b j

end Cert.Ece.Ref

end
-- ==== Proof.RefValue.lean ====
/-
  The reference's result as the closing formula of the three histograms. The last twelve operations of the reference
  are the closing formula itself; its three histogram stages are the specification's histograms, entry by entry, so the
  result is the closing formula of those.
-/
import proofs.«418438_j56461640073709_1_alg».proof.Proof.RefConfCount
import proofs.«418438_j56461640073709_1_alg».proof.Proof.RefCorrect

noncomputable section

namespace Cert.Ece.Ref

open Idealize.ShloMosaic Idealize.ShloMosaic.ValueIdx Cert.ReferenceIdeal Cert.ReferenceIdeal.Gen Cert.ReferenceIdeal.ReadP Cert.Ece

/-- The confidence histogram stage is the specification's, as an array. -/
theorem conf_eq (X : FVec Ideal S65536x1000 .f32) (L : IVec S65536 32) :
    val_main_v34 (F := Ideal) X = hist 0 X L := by
  funext i
  obtain ⟨b, j, rfl⟩ : ∃ (b : Fin 15) (j : Fin 1000), i = ix2 b j := ⟨i 0, i 1, eq_ix2 i⟩
  exact (conf_apply X L b j).trans (hist_ix2 0 X L b j).symm

/-- The count histogram stage is the specification's, as an array. -/
theorem count_eq (X : FVec Ideal S65536x1000 .f32) (L : IVec S65536 32) :
    val_main_v42 (F := Ideal) X = hist 1 X L := by
  funext i
  obtain ⟨b, j, rfl⟩ : ∃ (b : Fin 15) (j : Fin 1000), i = ix2 b j := ⟨i 0, i 1, eq_ix2 i⟩
  exact (count_apply X L b j).trans (hist_ix2 1 X L b j).symm

/-- The histogram of correct samples is the specification's, as an array, for labels in their range. -/
theorem correct_eq (X : FVec Ideal S65536x1000 .f32) (L : IVec S65536 32)
    (hL : ∀ n : Fin 65536, 0 ≤ (L (ix1 n)).toInt ∧ (L (ix1 n)).toInt < 1000) :
    val_main_v58 (F := Ideal) X L = hist 2 X L := by
  funext i
  obtain ⟨b, j, rfl⟩ : ∃ (b : Fin 15) (j : Fin 1000), i = ix2 b j := ⟨i 0, i 1, eq_ix2 i⟩
  exact (correct_apply X L hL b j).trans (hist_ix2 2 X L b j).symm

/-- The reference's result: the closing formula of the three histograms (for labels in their range). The shape
    relations of the closing formula are arbitrary witnesses. -/
theorem reference_value
    (hb : (⟨0, ![]⟩ : Shape).BroadcastsInDim ⟨2, ![15, 1000]⟩ (![] : Fin 0 → Fin 2))
    (hr : (⟨2, ![15, 1000]⟩ : Shape).ReducesTo [0, 1] ⟨0, ![]⟩)
    (h0 : 0 < (⟨0, ![]⟩ : Shape).numel)
    (hc : (⟨0, ![]⟩ : Shape).ShapeCasts ⟨1, ![1]⟩)
    (X : FVec Ideal S65536x1000 .f32) (L : IVec S65536 32)
    (hL : ∀ n : Fin 65536, 0 ≤ (L (ix1 n)).toInt ∧ (L (ix1 n)).toInt < 1000) :
    val_main_v70 (F := Ideal) X L = tail hb hr h0 hc (hist 0 X L) (hist 1 X L) (hist 2 X L) := by
  unfold val_main_v70 val_main_v69 val_main_v68 val_main_v67 val_main_v66 val_main_v64 val_main_v63 val_main_v62
    val_main_v61 val_main_v60
  rw [conf_eq X L, count_eq X L, correct_eq X L hL]
  rfl

end Cert.Ece.Ref

end
-- ==== Proof.PreLabels.lean ====
/-
  What the precondition says of the labels: every label, read signed, lies in [0, 1000). The printed predicate is the
  conjunction of "all logits finite" and "all labels in range", each an all-reduce by "and"; its value all ones gives
  the second conjunct, which gives each label's two comparisons.
-/
import proofs.«418438_j56461640073709_1_alg».proof.Pre_finite_inputs
import proofs.«418438_j56461640073709_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.Ece

open Idealize.ShloMosaic Idealize.ShloMosaic.ValueIdx Cert.Pre_finite_inputs

/-- From the precondition's value all ones: every label lies in its range. -/
theorem labels_of_pre (X : FVec Ideal S65536x1000 .f32) (L : IVec S65536 32)
    (h : Cert.Pre_finite_inputs.fn (F := Ideal) X L = (fun _ => 1#1)) :
    ∀ n : Fin 65536, 0 ≤ (L (ix1 n)).toInt ∧ (L (ix1 n)).toInt < 1000 := by
  intro n
  -- the predicate's one element
  have e := congrFun h ValueIdx.ix0
  dsimp only [fn] at e
  -- its second conjunct: the all-reduce over the labels
  have e2 := (IntOp.andi_eq_one.1 e).2
  haveI : Subsingleton S_.Idx := ⟨fun a b => funext fun d => d.elim0⟩
  -- every label's pair of comparisons
  have e3 := Host.reduce_andi_all _ _ _ _ _ e2 (ix1 n)
  obtain ⟨h0, h1⟩ := IntOp.andi_eq_one.1 e3
  have g0 : (0#32 : BitVec 32).toInt ≤ (L (ix1 n)).toInt := IntOp.cmpi_sge.1 h0
  have g1 : (L (ix1 n)).toInt < (1000#32 : BitVec 32).toInt := IntOp.cmpi_slt.1 h1
  have c0 : (0#32 : BitVec 32).toInt = 0 := by decide
  have c1 : (1000#32 : BitVec 32).toInt = 1000 := by decide
  rw [c0] at g0
  rw [c1] at g1
  exact ⟨g0, g1⟩

end Cert.Ece

end
-- ==== Proof.lean ====
/-
  The class-wise calibration error by histogram binning: a Pallas kernel against its jnp reference, equal at the
  ideal values for labels in their range.

  Both programs compute, per sample and class, the softmax probability, its bin clip (ceil (15 p) - 1, 0, 14) and
  whether it is positive, accumulate three histograms over (bin, class) — the sum of the valid probabilities, their
  number, and the number of samples whose label is the class — and close with the same formula: the sum over the cells
  of |conf / max (count, 1) - correct / max (count, 1)| * count / 65536, over 1000. The kernel accumulates each histogram
  tile by tile with one masked column sum per bin, on two cores whose halves the host adds; the reference scatters
  every entry into the segment bin * 1000 + class. On the extended reals a sum does not depend on its order and adding
  zero changes nothing, so the two histograms are one sum over the samples of one term (Proof/Spec.lean), with no
  finiteness needed. The reference finds a sample's own class by indexing with its label, which is only the kernel's
  "class = label" test when the label is a class: the precondition says so, and only the reference's side uses it.

  The frames of the two kernel programs are the generated ones; the reference's frame is its run with the result
  dropped. The idealization rewrote nothing, so what it preserves is trivially true.
-/
import proofs.«418438_j56461640073709_1_alg».proof.Defs
import proofs.«418438_j56461640073709_1_alg».proof.Proof.Gen.Kernel
import proofs.«418438_j56461640073709_1_alg».proof.Proof.Gen.Kernel.Skeleton
import proofs.«418438_j56461640073709_1_alg».proof.Proof.Gen.Kernel.Launch
import proofs.«418438_j56461640073709_1_alg».proof.Proof.Gen.Kernel.Points
import proofs.«418438_j56461640073709_1_alg».proof.Proof.Gen.Kernel.Frame
import proofs.«418438_j56461640073709_1_alg».proof.Proof.Gen.KernelIdeal
import proofs.«418438_j56461640073709_1_alg».proof.Proof.Gen.KernelIdeal.Skeleton
import proofs.«418438_j56461640073709_1_alg».proof.Proof.Gen.KernelIdeal.Launch
import proofs.«418438_j56461640073709_1_alg».proof.Proof.Gen.KernelIdeal.Points
import proofs.«418438_j56461640073709_1_alg».proof.Proof.Gen.KernelIdeal.Frame
import proofs.«418438_j56461640073709_1_alg».proof.Proof.Gen.ReferenceIdeal
import proofs.«418438_j56461640073709_1_alg».proof.Proof.Gen.Pre_finite_inputs
import proofs.«418438_j56461640073709_1_alg».proof.Proof.GenRefRun
import proofs.«418438_j56461640073709_1_alg».proof.Proof.GenRefRead
import proofs.«418438_j56461640073709_1_alg».proof.Proof.KernelValue
import proofs.«418438_j56461640073709_1_alg».proof.Proof.RefValue
import proofs.«418438_j56461640073709_1_alg».proof.Proof.PreLabels
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on logits and labels, labels in their range, both programs end at the closing formula
    of the same three histograms. -/
theorem algebraic : Cert.algebraic_KernelIdeal_ReferenceIdeal := by
  intro m ρ m' ρ' hpre hagree
  refine ⟨_, Cert.Ece.kernel_run Cert.KernelIdeal.Facts₀.bcast_S_S15x1000 Cert.KernelIdeal.Facts₀.reducesTo_S15x1000_S_d0_1
    Cert.KernelIdeal.Facts₀.h_S_ Cert.KernelIdeal.Facts₀.shapeCasts_S_S1 m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, (hagree c).1, (hagree c).2]
  exact Cert.Ece.Ref.reference_value _ _ _ _ _ _ (Cert.Ece.labels_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
